-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x2048 : Shape := ⟨3, ![4, 128, 2048]⟩
abbrev S32 : Shape := ⟨1, ![32]⟩
abbrev S_ : Shape := ⟨0, ![]⟩

class Facts : Prop where
  bcast_S_S4x128x2048 : S_.BroadcastsInDim S4x128x2048 (![] : Fin 0 → Fin S4x128x2048.rank)
  reducesTo_S4x128x2048_S_d0_1_2 : S4x128x2048.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4x128x2048 .f32) (main_arg1 : FVec F S4x128x2048 .f32) (main_arg2 : FVec F S4x128x2048 .f32) (main_arg3 : FVec F S32 .f32) (main_arg4 : IVec S4x128x2048 32) : IVec S_ 1 :=
  let main_v0 : FVec F S4x128x2048 .f32 := Host.absf main_arg0
  let main_cst : FVec F S_ .f32 := constant S_ .f32 0x7F800000#32
  let main_v1 : FVec F S4x128x2048 .f32 := broadcastInDim S4x128x2048 ![] bcast_S_S4x128x2048 main_cst
  let main_v2 : IVec S4x128x2048 1 := cmpf .olt main_v0 main_v1
  let main_c : IVec S_ 1 := constantI S_ 1 1#1
  let main_v3 : IVec S_ 1 := (fun x v => Host.reduce IntOp.andi x v reducesTo_S4x128x2048_S_d0_1_2 h_S_) main_v2 main_c
  let main_v4 : FVec F S4x128x2048 .f32 := Host.absf main_arg1
  let main_cst_0 : FVec F S_ .f32 := constant S_ .f32 0x7F800000#32
  let main_v5 : FVec F S4x128x2048 .f32 := broadcastInDim S4x128x2048 ![] bcast_S_S4x128x2048 main_cst_0
  let main_v6 : IVec S4x128x2048 1 := cmpf .olt main_v4 main_v5
  let main_c_1 : IVec S_ 1 := constantI S_ 1 1#1
  let main_v7 : IVec S_ 1 := (fun x v => Host.reduce IntOp.andi x v reducesTo_S4x128x2048_S_d0_1_2 h_S_) main_v6 main_c_1
  let main_v8 : IVec S_ 1 := andi main_v3 main_v7
  let main_v9 : FVec F S4x128x2048 .f32 := Host.absf main_arg2
  let main_cst_2 : FVec F S_ .f32 := constant S_ .f32 0x7F800000#32
  let main_v10 : FVec F S4x128x2048 .f32 := broadcastInDim S4x128x2048 ![] bcast_S_S4x128x2048 main_cst_2
  let main_v11 : IVec S4x128x2048 1 := cmpf .olt main_v9 main_v10
  let main_c_3 : IVec S_ 1 := constantI S_ 1 1#1
  let main_v12 : IVec S_ 1 := (fun x v => Host.reduce IntOp.andi x v reducesTo_S4x128x2048_S_d0_1_2 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4x128x2048 : Shape := ⟨3, ![4, 128, 2048]⟩
abbrev S32 : Shape := ⟨1, ![32]⟩
abbrev S4x128x256 : Shape := ⟨3, ![4, 128, 256]⟩
abbrev S1x128x256 : Shape := ⟨3, ![1, 128, 256]⟩
abbrev S128x256 : Shape := ⟨2, ![128, 256]⟩
abbrev S128x256x1 : Shape := ⟨3, ![128, 256, 1]⟩
abbrev S1x1x32 : Shape := ⟨3, ![1, 1, 32]⟩
abbrev S128x256x32 : Shape := ⟨3, ![128, 256, 32]⟩
abbrev S128x256x8 : Shape := ⟨3, ![128, 256, 8]⟩
abbrev S128x32x8 : Shape := ⟨3, ![128, 32, 8]⟩

abbrev nBuf : Space → Nat
  | .hbm => 6
  | .vmem => 12
  | .smem => 0
  | _ => 0

abbrev bufTy : (tb : Table) → Fin (tcTables nBuf tb) → BufTy
  | .hbm, ⟨0, _⟩ => ⟨S4x128x2048, .f32⟩
  | .hbm, ⟨1, _⟩ => ⟨S4x128x2048, .f32⟩
  | .hbm, ⟨2, _⟩ => ⟨S4x128x2048, .f32⟩
  | .hbm, ⟨3, _⟩ => ⟨S32, .f32⟩
  | .hbm, ⟨4, _⟩ => ⟨S4x128x2048, .i32⟩
  | .hbm, ⟨5, _⟩ => ⟨S4x128x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .i32⟩
  | .local _ .vmem, ⟨7, _⟩ => ⟨S1x128x256, .i32⟩
  | .local _ .vmem, ⟨8, _⟩ => ⟨S32, .f32⟩
  | .local _ .vmem, ⟨9, _⟩ => ⟨S1x128x256, .f32⟩
  | .local _ .vmem, ⟨10, _⟩ => ⟨S1x128x256, .f32⟩
  | .local _ .vmem, ⟨11, _⟩ => ⟨S128x256, .f32⟩
  | _, _ => ⟨S4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v151 : BitVec 1 := Scalar.cmpi .eq arg1 c7_i32
  let v152 : BitVec 32 := Scalar.extui v151
  let c0_i32_48 : BitVec 32 := 0#32
  let v153 : BitVec 1 := Scalar.cmpi .ne v152 c0_i32_48
  v153

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  natLt_1_32 : 1 < 32
  inb_S32_S32_0 : ∀ a, (![0] : Fin 1 → Nat) a + S32.size a ≤ S32.size a
  h_S32 : 0 < S32.numel
  shapeCasts_S128x256_S128x256x1 : S128x256.ShapeCasts S128x256x1
  shapeCasts_S32_S1x1x32 : S32.ShapeCasts S1x1x32
  broadcasts_S128x256x1_S128x256x32 : S128x256x1.Broadcasts S128x256x32
  broadcasts_S1x1x32_S128x256x32 : S1x1x32.Broadcasts S128x256x32
  concatenates_S128x256x1_S128x256x1_S128x256x1_S128x256x1_S128x256x1_S128x256x1_S128x256x1_S128x256x1_S128x256x8_d2 : Shape.Concatenates [S128x256x1, S128x256x1, S128x256x1, S128x256x1, S128x256x1, S128x256x1, S128x256x1, S128x256x1] S128x256x8 2
  broadcasts_S128x256x1_S128x256x8 : S128x256x1.Broadcasts S128x256x8
  shapeCasts_S128x32x8_S128x256 : S128x32x8.ShapeCasts S128x256
  shapeCasts_S128x256_S1x128x256 : S128x256.ShapeCasts S1x128x256
  dot_S128x256x32_S128x256x8_S128x32x8_1_1_2_2_0_0_wf : DotDims.WF S128x256x32 S128x256x8 S128x32x8 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S4x128x2048.size a
  hwx0_0 : ∀ i : grid0.Coords, EltTy.bits .f32 = 32 ∨ (Rect.block (s := S4x128x2048) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S4x128x2048.size a
  hwx0_1 : ∀ i : grid0.Coords, EltTy.bits .f32 = 32 ∨ (Rect.block (s := S4x128x2048) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S4x128x2048.size a
  hwx0_2 : ∀ i : grid0.Coords, EltTy.bits .f32 = 32 ∨ (Rect.block (s := S4x128x2048) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S4x128x2048.size a
  hwx0_3 : ∀ i : grid0.Coords, EltTy.bits .i32 = 32 ∨ (Rect.block (s := S4x128x2048) S1x128x256.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S4x128x256.size a
  hwx0_5 : ∀ i : grid0.Coords, EltTy.bits .f32 = 32 ∨ (Rect.block (s := S4x128x256) S1x128x256.size (cc0_transform_5 i) (hinb0_5 i)).WholeWords (EltTy.packing .f32)

variable [Facts₀]

def dot_S128x256x32_S128x256x8_S128x32x8_1_1_2_2_0_0 : DotDims S128x256x32 S128x256x8 S128x32x8 where
  lhsContracting := [1]
  rhsContracting := [1]
  lhsNonContracting := [2]
  rhsNonContracting := [2]
  lhsBatch := [0]
  rhsBatch := [0]
  wf := dot_S128x256x32_S128x256x8_S128x32x8_1_1_2_2_0_0_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x128x2048 : Shape := ⟨3, ![4, 128, 2048]⟩
abbrev S32 : Shape := ⟨1, ![32]⟩
abbrev S_ : Shape := ⟨0, ![]⟩
abbrev S4x128x2048x1 : Shape := ⟨4, ![4, 128, 2048, 1]⟩
abbrev S1x1x1x32 : Shape := ⟨4, ![1, 1, 1, 32]⟩
abbrev S4x128x2048x32 : Shape := ⟨4, ![4, 128, 2048, 32]⟩
abbrev S4x128x2048x8 : Shape := ⟨4, ![4, 128, 2048, 8]⟩
abbrev S4x128x32x8 : Shape := ⟨4, ![4, 128, 32, 8]⟩
abbrev S4x128x256 : Shape := ⟨3, ![4, 128, 256]⟩

abbrev nBuf : Space → Nat
  | .hbm => 191
  | .vmem => 0
  | .smem => 0
  | _ => 0

abbrev hbmTy0_0 (i : Nat) : BufTy := match i % 128 with
  | 0 => ⟨S4x128x2048, .f32⟩
  | 1 => ⟨S4x128x2048, .f32⟩
  | 2 => ⟨S4x128x2048, .f32⟩
  | 3 => ⟨S32, .f32⟩
  | 4 => ⟨S4x128x2048, .i32⟩
  | 5 => ⟨S_, .i32⟩
  | 6 => ⟨S4x128x2048, .i32⟩
  | 7 => ⟨S4x128x2048, .i1⟩
  | 8 => ⟨S4x128x2048, .f32⟩
  | 9 => ⟨S4x128x2048x1, .f32⟩
  | 10 => ⟨S1x1x1x32, .f32⟩
  | 11 => ⟨S4x128x2048x32, .f32⟩
  | 12 => ⟨S4x128x2048x32, .f32⟩
  | 13 => ⟨S4x128x2048x32, .f32⟩
  | 14 => ⟨S4x128x2048x32, .f32⟩
  | 15 => ⟨S_, .f32⟩
  | 16 => ⟨S4x128x2048x32, .f32⟩
  | 17 => ⟨S4x128x2048x32, .f32⟩
  | 18 => ⟨S4x128x2048x32, .f32⟩
  | 19 => ⟨S4x128x2048x1, .f32⟩
  | 20 => ⟨S1x1x1x32, .f32⟩
  | 21 => ⟨S4x128x2048x32, .f32⟩
  | 22 => ⟨S4x128x2048x32, .f32⟩
  | 23 => ⟨S4x128x2048x32, .f32⟩
  | 24 => ⟨S4x128x2048x32, .f32⟩
  | 25 => ⟨S_, .f32⟩
  | 26 => ⟨S4x128x2048x32, .f32⟩
  | 27 => ⟨S4x128x2048x32, .f32⟩
  | 28 => ⟨S4x128x2048x32, .f32⟩
  | 29 => ⟨S4x128x2048x32, .f32⟩
  | 30 => ⟨S4x128x2048x1, .f32⟩
  | 31 => ⟨S1x1x1x32, .f32⟩
  | 32 => ⟨S4x128x2048x32, .f32⟩
  | 33 => ⟨S4x128x2048x32, .f32⟩
  | 34 => ⟨S4x128x2048x32, .f32⟩
  | 35 => ⟨S4x128x2048x32, .f32⟩
  | 36 => ⟨S_, .f32⟩
  | 37 => ⟨S4x128x2048x32, .f32⟩
  | 38 => ⟨S4x128x2048x32, .f32⟩
  | 39 => ⟨S4x128x2048x32, .f32⟩
  | 40 => ⟨S4x128x2048x32, .f32⟩
  | 41 => ⟨S4x128x2048, .f32⟩
  | 42 => ⟨S4x128x2048, .f32⟩
  | 43 => ⟨S4x128x2048, .f32⟩
  | 44 => ⟨S4x128x2048, .f32⟩
  | 45 => ⟨S4x128x2048, .f32⟩
  | 46 => ⟨S_, .f32⟩
  | 47 => ⟨S4x128x2048, .f32⟩
  | 48 => ⟨S4x128x2048, .f32⟩
  | 49 => ⟨S4x128x2048, .f32⟩
  | 50 => ⟨S4x128x2048, .f32⟩
  | 51 => ⟨S_, .f32⟩
  | 52 => ⟨S_, .f32⟩
  | 53 => ⟨S4x128x2048, .f32⟩
  | 54 => ⟨S4x128x2048, .f32⟩
  | 55 => ⟨S_, .f32⟩
  | 56 => ⟨S4x128x2048, .f32⟩
  | 57 => ⟨S4x128x2048, .f32⟩
  | 58 => ⟨S_, .f32⟩
  | 59 => ⟨S4x128x2048, .f32⟩
  | 60 => ⟨S4x128x2048, .f32⟩
  | 61 => ⟨S_, .f32⟩
  | 62 => ⟨S4x128x2048, .f32⟩
  | 63 => ⟨S4x128x2048, .f32⟩
  | 64 => ⟨S4x128x2048, .f32⟩
  | 65 => ⟨S_, .f32⟩
  | 66 => ⟨S4x128x2048, .f32⟩
  | 67 => ⟨S4x128x2048, .f32⟩
  | 68 => ⟨S_, .f32⟩
  | 69 => ⟨S4x128x2048, .f32⟩
  | 70 => ⟨S4x128x2048, .f32⟩
  | 71 => ⟨S4x128x2048, .f32⟩
  | 72 => ⟨S4x128x2048, .f32⟩
  | 73 => ⟨S_, .f32⟩
  | 74 => ⟨S4x128x2048, .f32⟩
  | 75 => ⟨S4x128x2048, .f32⟩
  | 76 => ⟨S_, .f32⟩
  | 77 => ⟨S4x128x2048, .f32⟩
  | 78 => ⟨S4x128x2048, .f32⟩
  | 79 => ⟨S4x128x2048, .f32⟩
  | 80 => ⟨S4x128x2048, .f32⟩
  | 81 => ⟨S4x128x2048, .f32⟩
  | 82 => ⟨S_, .f32⟩
  | 83 => ⟨S4x128x2048, .f32⟩
  | 84 => ⟨S4x128x2048, .f32⟩
  | 85 => ⟨S_, .f32⟩
  | 86 => ⟨S4x128x2048, .f32⟩
  | 87 => ⟨S4x128x2048, .f32⟩
  | 88 => ⟨S_, .f32⟩
  | 89 => ⟨S4x128x2048, .f32⟩
  | 90 => ⟨S4x128x2048, .f32⟩
  | 91 => ⟨S_, .f32⟩
  | 92 => ⟨S4x128x2048, .f32⟩
  | 93 => ⟨S4x128x2048, .f32⟩
  | 94 => ⟨S4x128x2048, .f32⟩
  | 95 => ⟨S_, .f32⟩
  | 96 => ⟨S4x128x2048, .f32⟩
  | 97 => ⟨S4x128x2048, .f32⟩
  | 98 => ⟨S_, .f32⟩
  | 99 => ⟨S4x128x2048, .f32⟩
  | 100 => ⟨S4x128x2048, .f32⟩
  | 101 => ⟨S4x128x2048, .f32⟩
  | 102 => ⟨S4x128x2048, .f32⟩
  | 103 => ⟨S_, .f32⟩
  | 104 => ⟨S4x128x2048, .f32⟩
  | 105 => ⟨S4x128x2048, .f32⟩
  | 106 => ⟨S_, .f32⟩
  | 107 => ⟨S4x128x2048, .f32⟩
  | 108 => ⟨S4x128x2048, .f32⟩
  | 109 => ⟨S4x128x2048, .f32⟩
  | 110 => ⟨S4x128x2048, .f32⟩
  | 111 => ⟨S4x128x2048, .f32⟩
  | 112 => ⟨S_, .f32⟩
  | 113 => ⟨S4x128x2048, .f32⟩
  | 114 => ⟨S4x128x2048, .f32⟩
  | 115 => ⟨S4x128x2048x1, .f32⟩
  | 116 => ⟨S4x128x2048x1, .f32⟩
  | 117 => ⟨S4x128x2048x1, .f32⟩
  | 118 => ⟨S4x128x2048x1, .f32⟩
  | 119 => ⟨S4x128x2048x1, .f32⟩
  | 120 => ⟨S4x128x2048x1, .f32⟩
  | 121 => ⟨S4x128x2048x1, .f32⟩
  | 122 => ⟨S4x128x2048x1, .f32⟩
  | 123 => ⟨S4x128x2048x8, .f32⟩
  | 124 => ⟨S_, .f32⟩
  | 125 => ⟨S4x128x2048, .f32⟩
  | 126 => ⟨S4x128x2048, .f32⟩
  | 127 => ⟨S_, .f32⟩
  | _ => ⟨S4x128x2048, .f32⟩

abbrev hbmTy0_1 (i : Nat) : BufTy := match i % 128 with
  | 0 => ⟨S4x128x2048, .f32⟩
  | 1 => ⟨S4x128x2048, .f32⟩
  | 2 => ⟨S4x128x2048, .f32⟩
  | 3 => ⟨S_, .f32⟩
  | 4 => ⟨S4x128x2048, .f32⟩
  | 5 => ⟨S4x128x2048, .f32⟩
  | 6 => ⟨S_, .f32⟩
  | 7 => ⟨S4x128x2048, .f32⟩
  | 8 => ⟨S4x128x2048, .f32⟩
  | 9 => ⟨S_, .f32⟩
  | 10 => ⟨S4x128x2048, .f32⟩
  | 11 => ⟨S4x128x2048, .i1⟩
  | 12 => ⟨S4x128x2048, .f32⟩
  | 13 => ⟨S4x128x2048, .f32⟩
  | 14 => ⟨S_, .f32⟩
  | 15 => ⟨S4x128x2048, .f32⟩
  | 16 => ⟨S4x128x2048, .f32⟩
  | 17 => ⟨S_, .f32⟩
  | 18 => ⟨S4x128x2048, .f32⟩
  | 19 => ⟨S4x128x2048, .f32⟩
  | 20 => ⟨S4x128x2048, .f32⟩
  | 21 => ⟨S_, .f32⟩
  | 22 => ⟨S4x128x2048, .f32⟩
  | 23 => ⟨S4x128x2048, .f32⟩
  | 24 => ⟨S_, .f32⟩
  | 25 => ⟨S4x128x2048, .f32⟩
  | 26 => ⟨S4x128x2048, .f32⟩
  | 27 => ⟨S_, .f32⟩
  | 28 => ⟨S4x128x2048, .f32⟩
  | 29 => ⟨S4x128x2048, .i1⟩
  | 30 => ⟨S4x128x2048, .f32⟩
  | 31 => ⟨S4x128x2048, .f32⟩
  | 32 => ⟨S4x128x2048, .f32⟩
  | 33 => ⟨S_, .f32⟩
  | 34 => ⟨S4x128x2048, .f32⟩
  | 35 => ⟨S4x128x2048, .f32⟩
  | 36 => ⟨S_, .f32⟩
  | 37 => ⟨S4x128x2048, .f32⟩
  | 38 => ⟨S4x128x2048, .f32⟩
  | 39 => ⟨S4x128x2048, .f32⟩
  | 40 => ⟨S_, .f32⟩
  | 41 => ⟨S4x128x2048, .f32⟩
  | 42 => ⟨S4x128x2048, .f32⟩
  | 43 => ⟨S_, .f32⟩
  | 44 => ⟨S4x128x2048, .f32⟩
  | 45 => ⟨S4x128x2048, .f32⟩
  | 46 => ⟨S_, .f32⟩
  | 47 => ⟨S4x128x2048, .f32⟩
  | 48 => ⟨S4x128x2048, .i1⟩
  | 49 => ⟨S4x128x2048, .f32⟩
  | 50 => ⟨S4x128x2048, .f32⟩
  | 51 => ⟨S4x128x2048, .f32⟩
  | 52 => ⟨S4x128x2048x1, .f32⟩
  | 53 => ⟨S4x128x2048x32, .f32⟩
  | 54 => ⟨S4x128x2048x32, .f32⟩
  | 55 => ⟨S4x128x2048x1, .f32⟩
  | 56 => ⟨S4x128x2048x8, .f32⟩
  | 57 => ⟨S4x128x2048x8, .f32⟩
  | 58 => ⟨S4x128x2048x1, .f32⟩
  | 59 => ⟨S4x128x2048x32, .f32⟩
  | 60 => ⟨S4x128x2048x32, .f32⟩
  | 61 => ⟨S4x128x32x8, .f32⟩
  | 62 => ⟨S4x128x256, .f32⟩
  | _ => ⟨S4x128x2048, .f32⟩

abbrev hbmTy (i : Nat) : BufTy := match i / 128 with
  | 0 => hbmTy0_0 i
  | 1 => hbmTy0_1 i
  | _ => ⟨S4x128x2048, .f32⟩

abbrev bufTy : (tb : Table) → Fin (tcTables nBuf tb) → BufTy
  | .hbm, ⟨i, _⟩ => hbmTy i
  | _, _ => ⟨S4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_2 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_call0_v0 : Ref sig .tc := ⟨.hbm, 52, rfl⟩
abbrev main_call0_v1 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_cst_13 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_15 : Ref sig .tc := ⟨.hbm, 95, rfl⟩
abbrev main_v71 : Ref sig .tc := ⟨.hbm, 96, rfl⟩
abbrev main_v72 : Ref sig .tc := ⟨.hbm, 97, rfl⟩
abbrev main_cst_16 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_cst_18 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_20 : Ref sig .tc := ⟨.hbm, 124, rfl⟩
abbrev main_v95 : Ref sig .tc := ⟨.hbm, 125, rfl⟩
abbrev main_v96 : Ref sig .tc := ⟨.hbm, 126, rfl⟩
abbrev main_cst_21 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_22 : Ref sig .tc := ⟨.hbm, 131, rfl⟩
abbrev main_v100 : Ref sig .tc := ⟨.hbm, 132, rfl⟩
abbrev main_v101 : Ref sig .tc := ⟨.hbm, 133, rfl⟩
abbrev main_cst_23 : Ref sig .tc := ⟨.hbm, 134, rfl⟩
abbrev main_v102 : Ref sig .tc := ⟨.hbm, 135, rfl⟩
abbrev main_v103 : Ref sig .tc := ⟨.hbm, 136, rfl⟩
abbrev main_cst_24 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_25 : Ref sig .tc := ⟨.hbm, 142, rfl⟩
abbrev main_v108 : Ref sig .tc := ⟨.hbm, 143, rfl⟩
abbrev main_v109 : Ref sig .tc := ⟨.hbm, 144, rfl⟩
abbrev main_cst_26 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_27 : Ref sig .tc := ⟨.hbm, 149, rfl⟩
abbrev main_v113 : Ref sig .tc := ⟨.hbm, 150, rfl⟩
abbrev main_v114 : Ref sig .tc := ⟨.hbm, 151, rfl⟩
abbrev main_cst_28 : Ref sig .tc := ⟨.hbm, 152, rfl⟩
abbrev main_v115 : Ref sig .tc := ⟨.hbm, 153, rfl⟩
abbrev main_v116 : Ref sig .tc := ⟨.hbm, 154, rfl⟩
abbrev main_cst_29 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_30 : Ref sig .tc := ⟨.hbm, 161, rfl⟩
abbrev main_v122 : Ref sig .tc := ⟨.hbm, 162, rfl⟩
abbrev main_v123 : Ref sig .tc := ⟨.hbm, 163, rfl⟩
abbrev main_cst_31 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_32 : Ref sig .tc := ⟨.hbm, 168, rfl⟩
abbrev main_v127 : Ref sig .tc := ⟨.hbm, 169, rfl⟩
abbrev main_v128 : Ref sig .tc := ⟨.hbm, 170, rfl⟩
abbrev main_cst_33 : Ref sig .tc := ⟨.hbm, 171, rfl⟩
abbrev main_v129 : Ref sig .tc := ⟨.hbm, 172, rfl⟩
abbrev main_v130 : Ref sig .tc := ⟨.hbm, 173, rfl⟩
abbrev main_cst_34 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]

class Facts₀ : Prop where
  bcast_S_S4x128x2048 : S_.BroadcastsInDim S4x128x2048 (![] : Fin 0 → Fin S4x128x2048.rank)
  bcast_S4x128x2048_S4x128x2048x1_0_1_2 : S4x128x2048.BroadcastsInDim S4x128x2048x1 (![0, 1, 2] : Fin 3 → Fin S4x128x2048x1.rank)
  bcast_S32_S1x1x1x32_3 : S32.BroadcastsInDim S1x1x1x32 (![3] : Fin 1 → Fin S1x1x1x32.rank)
  bcast_S4x128x2048x1_S4x128x2048x32_0_1_2_3 : S4x128x2048x1.BroadcastsInDim S4x128x2048x32 (![0, 1, 2, 3] : Fin 4 → Fin S4x128x2048x32.rank)
  bcast_S1x1x1x32_S4x128x2048x32_0_1_2_3 : S1x1x1x32.BroadcastsInDim S4x128x2048x32 (![0, 1, 2, 3] : Fin 4 → Fin S4x128x2048x32.rank)
  bcast_S_S4x128x2048x32 : S_.BroadcastsInDim S4x128x2048x32 (![] : Fin 0 → Fin S4x128x2048x32.rank)
  concatenates_S4x128x2048x1_S4x128x2048x1_S4x128x2048x1_S4x128x2048x1_S4x128x2048x1_S4x128x2048x1_S4x128x2048x1_S4x128x2048x1_S4x128x2048x8_d3 : Shape.Concatenates [S4x128x2048x1, S4x128x2048x1, S4x128x2048x1, S4x128x2048x1, S4x128x2048x1, S4x128x2048x1, S4x128x2048x1, S4x128x2048x1] S4x128x2048x8 3
  bcast_S4x128x2048x1_S4x128x2048x8_0_1_2_3 : S4x128x2048x1.BroadcastsInDim S4x128x2048x8 (![0, 1, 2, 3] : Fin 4 → Fin S4x128x2048x8.rank)
  shapeCasts_S4x128x32x8_S4x128x256 : S4x128x32x8.ShapeCasts S4x128x256
  dot_S4x128x2048x32_S4x128x2048x8_S4x128x32x8_2_2_3_3_01_01_wf : DotDims.WF S4x128x2048x32 S4x128x2048x8 S4x128x32x8 [2] [2] [3] [3] [0, 1] [0, 1]

variable [Facts₀]

def dot_S4x128x2048x32_S4x128x2048x8_S4x128x32x8_2_2_3_3_01_01 : DotDims S4x128x2048x32 S4x128x2048x8 S4x128x32x8 where
  lhsContracting := [2]
  rhsContracting := [2]
  lhsNonContracting := [3]
  rhsNonContracting := [3]
  lhsBatch := [0, 1]
  rhsBatch := [0, 1]
  wf := dot_S4x128x2048x32_S4x128x2048x8_S4x128x32x8_2_2_3_3_01_01_wf

class Facts : Prop extends Facts₀ where

variable [Facts]
-- ==== Proof.Stored.lean ====
/-
  What one grid step stores into the carried accumulator, as ONE function of the step's five input blocks
  (the three distance tiles, the mask tile, the Gaussian centres) and of what the accumulator held: the held
  value plus the tile's contraction over its 256 triples.
-/
import proofs.«109276_j2774548873938_1_alg».proof.Proof.Gen.KernelIdeal.Skeleton

noncomputable section

namespace Cert.KernelIdeal.Body

open Cert.KernelIdeal Cert.KernelIdeal.Gen Idealize.ShloMosaic

variable {F : FTy → Type} [FloatOps F]

/-- The accumulator after a step: `acc` plus the step's `[128, 32·8]` contraction, from the blocks `x0 x1 x2`
    (distances), `x3` (mask) and `x4` (centres). -/
def stored (x0 x1 x2 : Vec F S1x128x256 .f32) (x3 : Vec F S1x128x256 .i32) (x4 : Vec F S32 .f32)
    (acc : Vec F S128x256 .f32) : FVec F S128x256 .f32 :=
  k0_pay1 (k0_pay8 x3)
    (k0_pay12 (k0_pay9 x0 x1 x4) (k0_pay10 x2) (k0_pay11 x4))
    (k0_pay28
      (k0_pay20 (k0_pay4 x0) (k0_pay5 x1) (k0_pay6 x2) (k0_pay7 x3))
      (k0_pay21 (k0_pay4 x0) (k0_pay5 x1) (k0_pay6 x2) (k0_pay7 x3))
      (k0_pay22 (k0_pay4 x0) (k0_pay5 x1) (k0_pay6 x2) (k0_pay7 x3))
      (k0_pay23 (k0_pay4 x0) (k0_pay5 x1) (k0_pay6 x2) (k0_pay7 x3))
      (k0_pay24 (k0_pay4 x0) (k0_pay5 x1) (k0_pay6 x2) (k0_pay7 x3))
      (k0_pay25 (k0_pay4 x0) (k0_pay5 x1) (k0_pay6 x2) (k0_pay7 x3))
      (k0_pay26 (k0_pay4 x0) (k0_pay5 x1) (k0_pay6 x2) (k0_pay7 x3))
      (k0_pay27 (k0_pay4 x0) (k0_pay5 x1) (k0_pay6 x2) (k0_pay7 x3)))
    (k0_pay29 (k0_pay4 x0) (k0_pay5 x1))
    (k0_pay30 (k0_pay6 x2))
    (k0_pay31 (k0_pay6 x2))
    acc

end Cert.KernelIdeal.Body

end
-- ==== Proof.Pieces.lean ====
/-
  What each of the body's three control cases leaves behind, as the one function `stored` of the step's blocks:
  the first step of a row of eight zeroes the accumulator and then adds its contraction; every later step adds its
  contraction to what the accumulator held; the last step also copies the accumulator into the output block.
-/
import proofs.«109276_j2774548873938_1_alg».proof.Proof.Gen.KernelIdeal.Frame
import proofs.«109276_j2774548873938_1_alg».proof.Proof.Stored
import Idealize.ShloMosaic.Lib.Pipeline.Value

set_option maxRecDepth 16384

noncomputable section

namespace Cert.KernelIdeal.Body

open Cert.KernelIdeal Cert.KernelIdeal.Gen Idealize.ShloMosaic Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step (neither the first nor the last of its row of eight) leaves in the accumulator what it held
    plus the step's contraction. -/
theorem sout_B (c : Dev nD) (i : grid0.Coords) (arg2 : Memref sig .tc .vmem S1x128x256 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .i32) (harg5 : arg5.IsWhole) (arg6 : Memref sig .tc .vmem S32 .f32) (harg6 : arg6.IsWhole) (arg7 : Memref sig .tc .vmem S1x128x256 .f32) (harg7 : arg7.IsWhole) (arg8 : Memref sig .tc .vmem S128x256 .f32) (harg8 : arg8.IsWhole) (hc0 : ¬cond0_0 i) (hc1 : ¬cond0_1 i) (x0 : Vec F S1x128x256 .f32) (x1 : Vec F S1x128x256 .f32) (x2 : Vec F S1x128x256 .f32) (x3 : Vec F S1x128x256 .i32) (x4 : Vec F S32 .f32) (xs0 : Vec F S128x256 .f32) :
    sout0_B_0 c i arg2 harg2 arg3 harg3 arg4 harg4 arg5 harg5 arg6 harg6 arg7 harg7 arg8 harg8 hc0 hc1 x0 x1 x2 x3 x4 xs0 = stored x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x128x256) hz3, View.ld_unit_zero (S := S32) hz1, View.ld_unit_zero (S := S128x256) hz2]
  rfl

/-- The last step of a row of eight leaves the same in the accumulator. -/
theorem sout_C (c : Dev nD) (i : grid0.Coords) (arg2 : Memref sig .tc .vmem S1x128x256 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .i32) (harg5 : arg5.IsWhole) (arg6 : Memref sig .tc .vmem S32 .f32) (harg6 : arg6.IsWhole) (arg7 : Memref sig .tc .vmem S1x128x256 .f32) (harg7 : arg7.IsWhole) (arg8 : Memref sig .tc .vmem S128x256 .f32) (harg8 : arg8.IsWhole) (hc0 : ¬cond0_0 i) (hc1 : cond0_1 i) (x0 : Vec F S1x128x256 .f32) (x1 : Vec F S1x128x256 .f32) (x2 : Vec F S1x128x256 .f32) (x3 : Vec F S1x128x256 .i32) (x4 : Vec F S32 .f32) (xs0 : Vec F S128x256 .f32) :
    sout0_C_0 c i arg2 harg2 arg3 harg3 arg4 harg4 arg5 harg5 arg6 harg6 arg7 harg7 arg8 harg8 hc0 hc1 x0 x1 x2 x3 x4 xs0 = stored x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x128x256) hz3, View.ld_unit_zero (S := S32) hz1, View.ld_unit_zero (S := S128x256) hz2]
  rfl

/-- The first step of a row of eight first zeroes the accumulator, so it leaves the contraction over zero. -/
theorem sout_A (c : Dev nD) (i : grid0.Coords) (arg2 : Memref sig .tc .vmem S1x128x256 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .i32) (harg5 : arg5.IsWhole) (arg6 : Memref sig .tc .vmem S32 .f32) (harg6 : arg6.IsWhole) (arg7 : Memref sig .tc .vmem S1x128x256 .f32) (harg7 : arg7.IsWhole) (arg8 : Memref sig .tc .vmem S128x256 .f32) (harg8 : arg8.IsWhole) (hc0 : cond0_0 i) (hc1 : ¬cond0_1 i) (x0 : Vec F S1x128x256 .f32) (x1 : Vec F S1x128x256 .f32) (x2 : Vec F S1x128x256 .f32) (x3 : Vec F S1x128x256 .i32) (x4 : Vec F S32 .f32) :
    sout0_A_0 c i arg2 harg2 arg3 harg3 arg4 harg4 arg5 harg5 arg6 harg6 arg7 harg7 arg8 harg8 hc0 hc1 x0 x1 x2 x3 x4 = stored x0 x1 x2 x3 x4 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S128x256) hz2, View.readCov_unit_zero (S := S128x256) _ hz2]
  simp only [View.readAt_eq_ld, harg2.read_unread, harg3.read_unread, harg4.read_unread, harg5.read_unread, harg6.read_unread, harg7.read_unread, harg8.read_unread, View.ld_unit_zero (S := S1x128x256) hz3, View.ld_unit_zero (S := S32) hz1, View.ld_unit_zero (S := S128x256) hz2]
  rfl

/-- The last step also copies the accumulator it has just stored into the output block. -/
theorem out_C (c : Dev nD) (i : grid0.Coords) (arg2 : Memref sig .tc .vmem S1x128x256 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .i32) (harg5 : arg5.IsWhole) (arg6 : Memref sig .tc .vmem S32 .f32) (harg6 : arg6.IsWhole) (arg7 : Memref sig .tc .vmem S1x128x256 .f32) (harg7 : arg7.IsWhole) (arg8 : Memref sig .tc .vmem S128x256 .f32) (harg8 : arg8.IsWhole) (hc0 : ¬cond0_0 i) (hc1 : cond0_1 i) (x0 : Vec F S1x128x256 .f32) (x1 : Vec F S1x128x256 .f32) (x2 : Vec F S1x128x256 .f32) (x3 : Vec F S1x128x256 .i32) (x4 : Vec F S32 .f32) (xs0 : Vec F S128x256 .f32) :
    out0_C_5 c i arg2 harg2 arg3 harg3 arg4 harg4 arg5 harg5 arg6 harg6 arg7 harg7 arg8 harg8 hc0 hc1 x0 x1 x2 x3 x4 xs0 = k0_pay2 (stored x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x128x256) hz3, View.ld_unit_zero (S := S32) hz1, View.ld_unit_zero (S := S128x256) hz2, View.readCov_unit_zero (S := S128x256) _ hz2]
  rfl

end Cert.KernelIdeal.Body

end
-- ==== Proof.Scalars.lean ====
/-
  The angular symmetry descriptor, one entry at a time, on the extended reals.

  For a triple of distances `x = r_ij`, `y = r_ik`, `z = r_jk`, a Gaussian centre `o` and a mask word `w`:
  the LEFT factor is the radial smearing `exp(-4(x-o)²)·exp(-4(y-o)²)·exp(-4(z-o)²)` times the three cosine
  cutoffs times the mask's indicator; the RIGHT factor, for the filter `f < 8`, is the Behler angular filter
  `2^(1-ζ)·(1 ∓ cos θ)^ζ` (ζ = 1, 2, 4, 8; minus for `f < 4`, plus for `f ≥ 4`) of the masked law-of-cosines
  angle, times the indicator again. Entry `(b, a, 8·r + f)` of the descriptor is the sum over the 2048 triples
  `k` of atom `(b, a)` of left(k, r) · right(k, f).
-/
import Idealize.ShloMosaic.PureOps.Ideal
import Idealize.ShloMosaic.Lib.ValueIdx

noncomputable section

namespace Cert.Descriptor

open Idealize.ShloMosaic Idealize.ShloMosaic.ValueIdx

/-- The extended real a 32-bit float pattern denotes. -/
abbrev lit (w : BitVec 32) : EReal := Ideal.ofBits .f32 w

/-- A one-bit flag as the number `0` or `1`. -/
def ind (b : BitVec 1) : EReal := ((b.toNat : ℝ) : EReal)

/-- The flag widened to a word and read as a signed integer is the same number. -/
theorem ind_of_widened (b : BitVec 1) : (((b.setWidth 32).toInt : ℝ) : EReal) = ind b := by
  have h : (b.setWidth 32).toInt = (b.toNat : ℤ) := by revert b; decide
  unfold ind
  rw [h]
  norm_cast

/-- One Gaussian of the radial smearing: `exp(-4·(r - o)²)`, the square taken first. -/
def gauss (r o : EReal) : EReal := Ideal.exp (lit 0xC0800000#32 * ((r - o) * (r - o)))

/-- The same Gaussian with the factor `-4` multiplied into the first `(r - o)`: multiplication of extended
    reals is associative. -/
theorem gauss_assoc (r o : EReal) : Ideal.exp (lit 0xC0800000#32 * (r - o) * (r - o)) = gauss r o := by
  unfold gauss
  rw [mul_assoc]

/-- The radial part of a triple at centre `o`. -/
def radial (x y z o : EReal) : EReal := gauss x o * gauss y o * gauss z o

/-- The cosine cutoff `½(cos(π r / 5) + 1)`, zero from the cutoff radius `5` on. -/
def cutoff (r : EReal) : EReal :=
  lit 0x3F000000#32 * (Ideal.cos (Ideal.div (lit 0x40490FDB#32 * r) (lit 0x40A00000#32)) + lit 0x3F800000#32)
    * ind (Ideal.cmp .olt r (lit 0x40A00000#32))

/-- The mask word's flag: set when the word is not zero. -/
def flag (w : BitVec 32) : BitVec 1 := IntOp.cmpi .ne w 0#32

/-- The cosine of the angle at atom `i` by the law of cosines, `0` where the triple is masked out. -/
def cosAngle (x y z : EReal) (b : BitVec 1) : EReal :=
  Scalar.select b (Ideal.div (x * x + y * y - z * z) (lit 0x40000000#32 * x * y)) (lit 0x00000000#32)

/-- The eight angular filters of a cosine `c`: `2^(1-ζ)(1 - c)^ζ` for ζ = 1, 2, 4, 8, then the same of `1 + c`,
    each power by repeated squaring. -/
def angular (c : EReal) : Fin 8 → EReal
  | ⟨0, _⟩ => lit 0x3F800000#32 * (lit 0x3F800000#32 - c)
  | ⟨1, _⟩ => lit 0x3F000000#32 * ((lit 0x3F800000#32 - c) * (lit 0x3F800000#32 - c))
  | ⟨2, _⟩ => lit 0x3E000000#32 * (((lit 0x3F800000#32 - c) * (lit 0x3F800000#32 - c)) * ((lit 0x3F800000#32 - c) * (lit 0x3F800000#32 - c)))
  | ⟨3, _⟩ => lit 0x3C000000#32 * ((((lit 0x3F800000#32 - c) * (lit 0x3F800000#32 - c)) * ((lit 0x3F800000#32 - c) * (lit 0x3F800000#32 - c))) * (((lit 0x3F800000#32 - c) * (lit 0x3F800000#32 - c)) * ((lit 0x3F800000#32 - c) * (lit 0x3F800000#32 - c))))
  | ⟨4, _⟩ => lit 0x3F800000#32 * (lit 0x3F800000#32 + c)
  | ⟨5, _⟩ => lit 0x3F000000#32 * ((lit 0x3F800000#32 + c) * (lit 0x3F800000#32 + c))
  | ⟨6, _⟩ => lit 0x3E000000#32 * (((lit 0x3F800000#32 + c) * (lit 0x3F800000#32 + c)) * ((lit 0x3F800000#32 + c) * (lit 0x3F800000#32 + c)))
  | ⟨7, _⟩ => lit 0x3C000000#32 * ((((lit 0x3F800000#32 + c) * (lit 0x3F800000#32 + c)) * ((lit 0x3F800000#32 + c) * (lit 0x3F800000#32 + c))) * (((lit 0x3F800000#32 + c) * (lit 0x3F800000#32 + c)) * ((lit 0x3F800000#32 + c) * (lit 0x3F800000#32 + c))))

/-- The left factor of a triple's term: radial part, cutoffs, mask. -/
def left (x y z o : EReal) (w : BitVec 32) : EReal :=
  radial x y z o * (cutoff x * cutoff y * cutoff z) * ind (flag w)

/-- The right factor of a triple's term at filter `f`: the angular filter of the masked angle, mask. -/
def right (x y z : EReal) (w : BitVec 32) (f : Fin 8) : EReal :=
  angular (cosAngle x y z (flag w)) f * ind (flag w)

abbrev SIn : Shape := ⟨3, ![4, 128, 2048]⟩
abbrev SOff : Shape := ⟨1, ![32]⟩
abbrev SOut : Shape := ⟨3, ![4, 128, 256]⟩

/-- The Gaussian centre an output column belongs to: `q / 8`. -/
def centreOf (i : SOut.Idx) : Fin 32 := ⟨(i 2).val / 8, by have h : (i 2).val < 256 := (i 2).isLt; omega⟩

/-- The angular filter an output column belongs to: `q % 8`. -/
def filterOf (i : SOut.Idx) : Fin 8 := ⟨(i 2).val % 8, Nat.mod_lt _ (by decide)⟩

/-- One triple's term of entry `i`. -/
def term (X Y Z : SIn.Idx → EReal) (O : SOff.Idx → EReal) (W : SIn.Idx → BitVec 32) (i : SOut.Idx) (k : Fin 2048) : EReal :=
  left (X (ix3 (i 0) (i 1) k)) (Y (ix3 (i 0) (i 1) k)) (Z (ix3 (i 0) (i 1) k)) (O (ix1 (centreOf i))) (W (ix3 (i 0) (i 1) k))
    * right (X (ix3 (i 0) (i 1) k)) (Y (ix3 (i 0) (i 1) k)) (Z (ix3 (i 0) (i 1) k)) (W (ix3 (i 0) (i 1) k)) (filterOf i)

/-- The descriptor: entry `i` is the sum of its 2048 triples' terms. -/
def G (X Y Z : SIn.Idx → EReal) (O : SOff.Idx → EReal) (W : SIn.Idx → BitVec 32) : SOut.Idx → EReal :=
  fun i => ∑ k : Fin 2048, term X Y Z O W i k

end Cert.Descriptor

end
-- ==== Proof.Payload.lean ====
/-
  One grid step's stored accumulator, read at an entry `(a, q)`: what the accumulator held there plus the sum, over
  the tile's 256 triples `j`, of the triple's left factor at centre `q / 8` times its right factor at filter
  `q % 8` — the batched matrix product of the `[128, 256, 32]` and `[128, 256, 8]` factors along the triples,
  flattened to `[128, 256]`.
-/
import proofs.«109276_j2774548873938_1_alg».proof.Proof.Stored
import proofs.«109276_j2774548873938_1_alg».proof.Proof.Scalars
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Descriptor Idealize.ShloMosaic Idealize.ShloMosaic.ValueIdx

/-! ## Layout operations of the step, read at an entry -/

section Layout
variable {α : Type}

/-- A [128, 256] array given a trailing unit axis and repeated along a new last axis of any length reads, at
    (a, j, r), the array at (a, j). -/
private theorem column_apply {n : Nat} (v : S128x256.Idx → α) (h1 : S128x256.ShapeCasts S128x256x1)
    (h2 : S128x256x1.Broadcasts ⟨3, ![128, 256, n]⟩) (a : Fin 128) (j : Fin 256) (r : Fin n) :
    broadcastTo ⟨3, ![128, 256, n]⟩ (shapeCast S128x256x1 v h1) h2 (ix3 a j r) = v (ix2 a j) := by
  refine (broadcastTo_apply _ h2 (ix3 a j r) (ix3 a j (0 : Fin 1)) fun ax => ?_).trans ?_
  · match ax with
    | ⟨0, _⟩ => rfl
    | ⟨1, _⟩ => rfl
    | ⟨2, _⟩ => rfl
  · exact shapeCast_apply v h1 (ix3 a j (0 : Fin 1)) (ix2 a j) (by
      rw [Shape.rowMajor_val_two, Shape.rowMajor_val_three]
      show a.val * 256 + j.val = (a.val * 256 + j.val) * 1 + 0
      omega)

/-- A [128, 256] array given a trailing unit axis reads, at (a, j, 0), the array at (a, j). -/
private theorem unitColumn_apply (v : S128x256.Idx → α) (h1 : S128x256.ShapeCasts S128x256x1) (a : Fin 128) (j : Fin 256) (u : Fin 1) :
    shapeCast S128x256x1 v h1 (ix3 a j u) = v (ix2 a j) :=
  shapeCast_apply v h1 (ix3 a j u) (ix2 a j) (by
    have hu : u.val = 0 := by omega
    rw [Shape.rowMajor_val_two, Shape.rowMajor_val_three]
    show a.val * 256 + j.val = (a.val * 256 + j.val) * 1 + u.val
    omega)

/-- The 32 centres viewed [1, 1, 32] and repeated over the tile read, at (a, j, r), centre r. -/
private theorem centres_apply (o : S32.Idx → α) (h1 : S32.ShapeCasts S1x1x32) (h2 : S1x1x32.Broadcasts S128x256x32)
    (a : Fin 128) (j : Fin 256) (r : Fin 32) :
    broadcastTo S128x256x32 (shapeCast S1x1x32 o h1) h2 (ix3 a j r) = o (ix1 r) := by
  refine (broadcastTo_apply _ h2 (ix3 a j r) (ix3 (0 : Fin 1) (0 : Fin 1) r) fun ax => ?_).trans ?_
  · match ax with
    | ⟨0, _⟩ => rfl
    | ⟨1, _⟩ => rfl
    | ⟨2, _⟩ => rfl
  · exact shapeCast_apply o h1 (ix3 (0 : Fin 1) (0 : Fin 1) r) (ix1 r) (by
      rw [Shape.rowMajor_val_one, Shape.rowMajor_val_three]
      show r.val = (0 * 1 + 0) * 32 + r.val
      omega)

/-- The [128, 32, 8] contraction flattened to [128, 256] reads, at (a, q), its entry (a, q / 8, q % 8). -/
private theorem flatten_apply (v : S128x32x8.Idx → α) (h : S128x32x8.ShapeCasts S128x256) (a : Fin 128) (q : Fin 256) :
    shapeCast S128x256 v h (ix2 a q)
      = v (ix3 a (⟨q.val / 8, by omega⟩ : Fin 32) (⟨q.val % 8, Nat.mod_lt _ (by decide)⟩ : Fin 8)) :=
  shapeCast_apply v h (ix2 a q) _ (by
    rw [Shape.rowMajor_val_two, Shape.rowMajor_val_three]
    show (a.val * 32 + q.val / 8) * 8 + q.val % 8 = a.val * 256 + q.val
    omega)

/-- One of eight values by its position. -/
private def pick8 {β : Type} (p0 p1 p2 p3 p4 p5 p6 p7 : β) : Fin 8 → β
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨7, _⟩ => p7

/-- Eight [128, 256, 1] columns laid side by side along the last axis read, at (a, j, f), column f at (a, j, 0). -/
private theorem columns_apply (p0 p1 p2 p3 p4 p5 p6 p7 : S128x256x1.Idx → α)
    (h : Shape.Concatenates [S128x256x1, S128x256x1, S128x256x1, S128x256x1, S128x256x1, S128x256x1, S128x256x1, S128x256x1] S128x256x8 2)
    (a : Fin 128) (j : Fin 256) (f : Fin 8) :
    concatenate S128x256x8 2 [⟨S128x256x1, p0⟩, ⟨S128x256x1, p1⟩, ⟨S128x256x1, p2⟩, ⟨S128x256x1, p3⟩, ⟨S128x256x1, p4⟩,
        ⟨S128x256x1, p5⟩, ⟨S128x256x1, p6⟩, ⟨S128x256x1, p7⟩] h (ix3 a j f)
      = pick8 p0 p1 p2 p3 p4 p5 p6 p7 f (ix3 a j (0 : Fin 1)) := by
  have hi : ∀ b : Fin S128x256x1.rank, b.cast (rfl : S128x256x1.rank = S128x256x8.rank) ≠ (2 : Fin S128x256x8.rank) →
      ((ix3 a j (0 : Fin 1) : S128x256x1.Idx) b).val = ((ix3 a j f : S128x256x8.Idx) (b.cast rfl)).val := fun b hb => by
    match b with
    | ⟨0, _⟩ => rfl
    | ⟨1, _⟩ => rfl
    | ⟨2, _⟩ => exact absurd rfl hb
  let xs : List ((s : Shape) × (s.Idx → α)) := [⟨S128x256x1, p0⟩, ⟨S128x256x1, p1⟩, ⟨S128x256x1, p2⟩, ⟨S128x256x1, p3⟩, ⟨S128x256x1, p4⟩, ⟨S128x256x1, p5⟩, ⟨S128x256x1, p6⟩, ⟨S128x256x1, p7⟩]
  match f with
  | ⟨0, _⟩ => exact concatenate_apply_piece (2 : Fin S128x256x8.rank) xs h _ 0 (by show (0 : ℕ) < 8; decide) S128x256x1 p0 rfl rfl 0 rfl _ hi rfl
  | ⟨1, _⟩ => exact concatenate_apply_piece (2 : Fin S128x256x8.rank) xs h _ 1 (by show (1 : ℕ) < 8; decide) S128x256x1 p1 rfl rfl 1 rfl _ hi rfl
  | ⟨2, _⟩ => exact concatenate_apply_piece (2 : Fin S128x256x8.rank) xs h _ 2 (by show (2 : ℕ) < 8; decide) S128x256x1 p2 rfl rfl 2 rfl _ hi rfl
  | ⟨3, _⟩ => exact concatenate_apply_piece (2 : Fin S128x256x8.rank) xs h _ 3 (by show (3 : ℕ) < 8; decide) S128x256x1 p3 rfl rfl 3 rfl _ hi rfl
  | ⟨4, _⟩ => exact concatenate_apply_piece (2 : Fin S128x256x8.rank) xs h _ 4 (by show (4 : ℕ) < 8; decide) S128x256x1 p4 rfl rfl 4 rfl _ hi rfl
  | ⟨5, _⟩ => exact concatenate_apply_piece (2 : Fin S128x256x8.rank) xs h _ 5 (by show (5 : ℕ) < 8; decide) S128x256x1 p5 rfl rfl 5 rfl _ hi rfl
  | ⟨6, _⟩ => exact concatenate_apply_piece (2 : Fin S128x256x8.rank) xs h _ 6 (by show (6 : ℕ) < 8; decide) S128x256x1 p6 rfl rfl 6 rfl _ hi rfl
  | ⟨7, _⟩ => exact concatenate_apply_piece (2 : Fin S128x256x8.rank) xs h _ 7 (by show (7 : ℕ) < 8; decide) S128x256x1 p7 rfl rfl 7 rfl _ hi rfl

end Layout

/-! ## The contraction over the tile's triples, read at an entry -/

private theorem lhs_contract_0 (i : S128x32x8.Idx) (q : dot_S128x256x32_S128x256x8_S128x32x8_1_1_2_2_0_0.contr.Idx) :
    (dot_S128x256x32_S128x256x8_S128x32x8_1_1_2_2_0_0.lhsIdx i q 0).val = (i 0).val := by
  unfold DotDims.lhsIdx
  rw [dif_pos (show (0 : Fin S128x256x32.rank) ∈ dot_S128x256x32_S128x256x8_S128x32x8_1_1_2_2_0_0.lhsBatch by decide)]
  rfl
private theorem lhs_contract_1 (i : S128x32x8.Idx) (q : dot_S128x256x32_S128x256x8_S128x32x8_1_1_2_2_0_0.contr.Idx) :
    (dot_S128x256x32_S128x256x8_S128x32x8_1_1_2_2_0_0.lhsIdx i q 1).val = (q ⟨0, by decide⟩).val :=
  dot_S128x256x32_S128x256x8_S128x32x8_1_1_2_2_0_0.lhsIdx_val_of_single rfl i q
private theorem lhs_contract_2 (i : S128x32x8.Idx) (q : dot_S128x256x32_S128x256x8_S128x32x8_1_1_2_2_0_0.contr.Idx) :
    (dot_S128x256x32_S128x256x8_S128x32x8_1_1_2_2_0_0.lhsIdx i q 2).val = (i 1).val := by
  unfold DotDims.lhsIdx
  rw [dif_neg (show ¬(2 : Fin S128x256x32.rank) ∈ dot_S128x256x32_S128x256x8_S128x32x8_1_1_2_2_0_0.lhsBatch by decide), dif_pos (show (2 : Fin S128x256x32.rank) ∈ dot_S128x256x32_S128x256x8_S128x32x8_1_1_2_2_0_0.lhsNonContracting by decide)]
  rfl
private theorem rhs_contract_0 (i : S128x32x8.Idx) (q : dot_S128x256x32_S128x256x8_S128x32x8_1_1_2_2_0_0.contr.Idx) :
    (dot_S128x256x32_S128x256x8_S128x32x8_1_1_2_2_0_0.rhsIdx i q 0).val = (i 0).val := by
  unfold DotDims.rhsIdx
  rw [dif_pos (show (0 : Fin S128x256x8.rank) ∈ dot_S128x256x32_S128x256x8_S128x32x8_1_1_2_2_0_0.rhsBatch by decide)]
  rfl
private theorem rhs_contract_1 (i : S128x32x8.Idx) (q : dot_S128x256x32_S128x256x8_S128x32x8_1_1_2_2_0_0.contr.Idx) :
    (dot_S128x256x32_S128x256x8_S128x32x8_1_1_2_2_0_0.rhsIdx i q 1).val = (q ⟨0, by decide⟩).val :=
  dot_S128x256x32_S128x256x8_S128x32x8_1_1_2_2_0_0.rhsIdx_val_of_single rfl i q
private theorem rhs_contract_2 (i : S128x32x8.Idx) (q : dot_S128x256x32_S128x256x8_S128x32x8_1_1_2_2_0_0.contr.Idx) :
    (dot_S128x256x32_S128x256x8_S128x32x8_1_1_2_2_0_0.rhsIdx i q 2).val = (i 2).val := by
  unfold DotDims.rhsIdx
  rw [dif_neg (show ¬(2 : Fin S128x256x8.rank) ∈ dot_S128x256x32_S128x256x8_S128x32x8_1_1_2_2_0_0.rhsBatch by decide), dif_pos (show (2 : Fin S128x256x8.rank) ∈ dot_S128x256x32_S128x256x8_S128x32x8_1_1_2_2_0_0.rhsNonContracting by decide)]
  rfl

/-- The batched product of a [128, 256, 32] and a [128, 256, 8] array along their middle axis, started from zero: entry
    (a, r, f) is the sum over j of the left factor at (a, j, r) times the right factor at (a, j, f). -/
private theorem contract_apply (L : FVec Ideal S128x256x32 .f32) (R : FVec Ideal S128x256x8 .f32) (a : Fin 128) (r : Fin 32) (f : Fin 8) :
    matmul (F := Ideal) dot_S128x256x32_S128x256x8_S128x32x8_1_1_2_2_0_0 none L R (constant (F := Ideal) S128x32x8 .f32 0x00000000#32) (ix3 a r f)
      = ∑ j : Fin 256, L (ix3 a j r) * R (ix3 a j f) := by
  simp only [matmul]
  rw [Ideal.matmul_constant_zero_apply, ← Equiv.sum_comp (contrEquiv1 dot_S128x256x32_S128x256x8_S128x32x8_1_1_2_2_0_0 256 rfl rfl).symm]
  refine Finset.sum_congr rfl fun k _ => ?_
  have hk := contrEquiv1_symm_val dot_S128x256x32_S128x256x8_S128x32x8_1_1_2_2_0_0 256 rfl rfl k
  have el : dot_S128x256x32_S128x256x8_S128x32x8_1_1_2_2_0_0.lhsIdx (ix3 a r f) ((contrEquiv1 dot_S128x256x32_S128x256x8_S128x32x8_1_1_2_2_0_0 256 rfl rfl).symm k) = ix3 a k r := funext fun ax => Fin.ext (by
    match ax with
    | ⟨0, _⟩ => exact lhs_contract_0 _ _
    | ⟨1, _⟩ => exact (lhs_contract_1 _ _).trans hk
    | ⟨2, _⟩ => exact lhs_contract_2 _ _)
  have er : dot_S128x256x32_S128x256x8_S128x32x8_1_1_2_2_0_0.rhsIdx (ix3 a r f) ((contrEquiv1 dot_S128x256x32_S128x256x8_S128x32x8_1_1_2_2_0_0 256 rfl rfl).symm k) = ix3 a k f := funext fun ax => Fin.ext (by
    match ax with
    | ⟨0, _⟩ => exact rhs_contract_0 _ _
    | ⟨1, _⟩ => exact (rhs_contract_1 _ _).trans hk
    | ⟨2, _⟩ => exact rhs_contract_2 _ _)
  rw [el, er]

/-! ## The step's payloads, read at an entry -/

/-- A distance tile without its leading unit axis. -/
private theorem pay4_apply (x : Vec Ideal S1x128x256 .f32) (a : Fin 128) (j : Fin 256) :
    k0_pay4 (F := Ideal) x (ix2 a j) = x (ix3 0 a j) := by
  unfold k0_pay4
  exact shapeCast_1ab_ab_apply x _ a j
private theorem pay5_apply (x : Vec Ideal S1x128x256 .f32) (a : Fin 128) (j : Fin 256) :
    k0_pay5 (F := Ideal) x (ix2 a j) = x (ix3 0 a j) := by
  unfold k0_pay5
  exact shapeCast_1ab_ab_apply x _ a j
private theorem pay6_apply (x : Vec Ideal S1x128x256 .f32) (a : Fin 128) (j : Fin 256) :
    k0_pay6 (F := Ideal) x (ix2 a j) = x (ix3 0 a j) := by
  unfold k0_pay6
  exact shapeCast_1ab_ab_apply x _ a j

/-- The mask's flag. -/
private theorem pay7_apply (w : Vec Ideal S1x128x256 .i32) (a : Fin 128) (j : Fin 256) :
    k0_pay7 (F := Ideal) w (ix2 a j) = flag (w (ix3 0 a j)) := by
  unfold k0_pay7
  exact congrArg (fun u : BitVec 32 => IntOp.cmpi .ne u 0#32) (shapeCast_1ab_ab_apply w _ a j)

/-- The mask's indicator. -/
private theorem pay8_apply (w : Vec Ideal S1x128x256 .i32) (a : Fin 128) (j : Fin 256) :
    k0_pay8 (F := Ideal) w (ix2 a j) = ind (flag (w (ix3 0 a j))) := by
  rw [← pay7_apply w a j, ← ind_of_widened]
  rfl

/-- The first two Gaussians of the radial part. -/
private theorem pay9_apply (x0 x1 : Vec Ideal S1x128x256 .f32) (x4 : Vec Ideal S32 .f32) (a : Fin 128) (j : Fin 256) (r : Fin 32) :
    k0_pay9 (F := Ideal) x0 x1 x4 (ix3 a j r)
      = gauss (x0 (ix3 0 a j)) (x4 (ix1 r)) * gauss (x1 (ix3 0 a j)) (x4 (ix1 r)) := by
  have e0 := (column_apply (k0_pay4 (F := Ideal) x0) shapeCasts_S128x256_S128x256x1 broadcasts_S128x256x1_S128x256x32 a j r).trans
    (pay4_apply x0 a j)
  have e1 := (column_apply (k0_pay5 (F := Ideal) x1) shapeCasts_S128x256_S128x256x1 broadcasts_S128x256x1_S128x256x32 a j r).trans
    (pay5_apply x1 a j)
  have e4 := centres_apply x4 shapeCasts_S32_S1x1x32 broadcasts_S1x1x32_S128x256x32 a j r
  rw [← gauss_assoc, ← gauss_assoc, ← e0, ← e1, ← e4]
  rfl

/-- The third distance repeated over the centres. -/
private theorem pay10_apply (x2 : Vec Ideal S1x128x256 .f32) (a : Fin 128) (j : Fin 256) (r : Fin 32) :
    k0_pay10 (F := Ideal) x2 (ix3 a j r) = x2 (ix3 0 a j) := by
  unfold k0_pay10
  exact (column_apply _ _ _ a j r).trans (pay6_apply x2 a j)

/-- The centres repeated over the tile. -/
private theorem pay11_apply (x4 : Vec Ideal S32 .f32) (a : Fin 128) (j : Fin 256) (r : Fin 32) :
    k0_pay11 (F := Ideal) x4 (ix3 a j r) = x4 (ix1 r) := by
  unfold k0_pay11
  exact centres_apply x4 _ _ a j r

/-- The radial part. -/
private theorem radial_apply (x0 x1 x2 : Vec Ideal S1x128x256 .f32) (x4 : Vec Ideal S32 .f32) (a : Fin 128) (j : Fin 256) (r : Fin 32) :
    k0_pay12 (F := Ideal) (k0_pay9 x0 x1 x4) (k0_pay10 x2) (k0_pay11 x4) (ix3 a j r)
      = radial (x0 (ix3 0 a j)) (x1 (ix3 0 a j)) (x2 (ix3 0 a j)) (x4 (ix1 r)) := by
  unfold radial
  rw [← pay9_apply x0 x1 x4 a j r, ← gauss_assoc, ← pay10_apply x2 a j r, ← pay11_apply x4 a j r]
  rfl

/-- The first two cutoffs. -/
private theorem pay29_apply (v4 v6 : FVec Ideal S128x256 .f32) (i : S128x256.Idx) :
    k0_pay29 (F := Ideal) v4 v6 i = cutoff (v4 i) * cutoff (v6 i) := by
  unfold cutoff
  rw [← ind_of_widened, ← ind_of_widened]
  rfl

/-- The third cutoff. -/
private theorem pay30_31_apply (v8 : FVec Ideal S128x256 .f32) (i : S128x256.Idx) :
    k0_pay30 (F := Ideal) v8 i * (((k0_pay31 (F := Ideal) v8 i).setWidth 32).toInt : ℝ) = cutoff (v8 i) := by
  unfold cutoff
  rw [← ind_of_widened]
  rfl

/-- The masked cosine of the angle. -/
private theorem pay13_apply (v4 v6 v8 : FVec Ideal S128x256 .f32) (v12 : IVec S128x256 1) (i : S128x256.Idx) :
    k0_pay13 (F := Ideal) v4 v6 v8 v12 i = cosAngle (v4 i) (v6 i) (v8 i) (v12 i) := rfl

/-! ## The eight angular filters -/

private theorem pay24_apply (v4 v6 v8 : FVec Ideal S128x256 .f32) (v12 : IVec S128x256 1) (a : Fin 128) (j : Fin 256) (u : Fin 1) :
    k0_pay24 (F := Ideal) v4 v6 v8 v12 (ix3 a j u)
      = angular (cosAngle (v4 (ix2 a j)) (v6 (ix2 a j)) (v8 (ix2 a j)) (v12 (ix2 a j))) ⟨0, by decide⟩ := by
  unfold k0_pay24
  exact (unitColumn_apply _ _ a j u).trans rfl
private theorem pay25_apply (v4 v6 v8 : FVec Ideal S128x256 .f32) (v12 : IVec S128x256 1) (a : Fin 128) (j : Fin 256) (u : Fin 1) :
    k0_pay25 (F := Ideal) v4 v6 v8 v12 (ix3 a j u)
      = angular (cosAngle (v4 (ix2 a j)) (v6 (ix2 a j)) (v8 (ix2 a j)) (v12 (ix2 a j))) ⟨1, by decide⟩ := by
  unfold k0_pay25
  exact (unitColumn_apply _ _ a j u).trans rfl
private theorem pay26_apply (v4 v6 v8 : FVec Ideal S128x256 .f32) (v12 : IVec S128x256 1) (a : Fin 128) (j : Fin 256) (u : Fin 1) :
    k0_pay26 (F := Ideal) v4 v6 v8 v12 (ix3 a j u)
      = angular (cosAngle (v4 (ix2 a j)) (v6 (ix2 a j)) (v8 (ix2 a j)) (v12 (ix2 a j))) ⟨2, by decide⟩ := by
  unfold k0_pay26
  exact (unitColumn_apply _ _ a j u).trans rfl
private theorem pay27_apply (v4 v6 v8 : FVec Ideal S128x256 .f32) (v12 : IVec S128x256 1) (a : Fin 128) (j : Fin 256) (u : Fin 1) :
    k0_pay27 (F := Ideal) v4 v6 v8 v12 (ix3 a j u)
      = angular (cosAngle (v4 (ix2 a j)) (v6 (ix2 a j)) (v8 (ix2 a j)) (v12 (ix2 a j))) ⟨3, by decide⟩ := by
  unfold k0_pay27
  exact (unitColumn_apply _ _ a j u).trans rfl
private theorem pay20_apply (v4 v6 v8 : FVec Ideal S128x256 .f32) (v12 : IVec S128x256 1) (a : Fin 128) (j : Fin 256) (u : Fin 1) :
    shapeCast S128x256x1 (k0_pay20 (F := Ideal) v4 v6 v8 v12) shapeCasts_S128x256_S128x256x1 (ix3 a j u)
      = angular (cosAngle (v4 (ix2 a j)) (v6 (ix2 a j)) (v8 (ix2 a j)) (v12 (ix2 a j))) ⟨4, by decide⟩ :=
  (unitColumn_apply _ _ a j u).trans rfl
private theorem pay21_apply (v4 v6 v8 : FVec Ideal S128x256 .f32) (v12 : IVec S128x256 1) (a : Fin 128) (j : Fin 256) (u : Fin 1) :
    shapeCast S128x256x1 (k0_pay21 (F := Ideal) v4 v6 v8 v12) shapeCasts_S128x256_S128x256x1 (ix3 a j u)
      = angular (cosAngle (v4 (ix2 a j)) (v6 (ix2 a j)) (v8 (ix2 a j)) (v12 (ix2 a j))) ⟨5, by decide⟩ :=
  (unitColumn_apply _ _ a j u).trans rfl
private theorem pay22_apply (v4 v6 v8 : FVec Ideal S128x256 .f32) (v12 : IVec S128x256 1) (a : Fin 128) (j : Fin 256) (u : Fin 1) :
    shapeCast S128x256x1 (k0_pay22 (F := Ideal) v4 v6 v8 v12) shapeCasts_S128x256_S128x256x1 (ix3 a j u)
      = angular (cosAngle (v4 (ix2 a j)) (v6 (ix2 a j)) (v8 (ix2 a j)) (v12 (ix2 a j))) ⟨6, by decide⟩ :=
  (unitColumn_apply _ _ a j u).trans rfl
private theorem pay23_apply (v4 v6 v8 : FVec Ideal S128x256 .f32) (v12 : IVec S128x256 1) (a : Fin 128) (j : Fin 256) (u : Fin 1) :
    shapeCast S128x256x1 (k0_pay23 (F := Ideal) v4 v6 v8 v12) shapeCasts_S128x256_S128x256x1 (ix3 a j u)
      = angular (cosAngle (v4 (ix2 a j)) (v6 (ix2 a j)) (v8 (ix2 a j)) (v12 (ix2 a j))) ⟨7, by decide⟩ :=
  (unitColumn_apply _ _ a j u).trans rfl

/-- The eight angular filters side by side, at filter f. -/
private theorem angular_apply (v4 v6 v8 : FVec Ideal S128x256 .f32) (v12 : IVec S128x256 1) (a : Fin 128) (j : Fin 256) (f : Fin 8) :
    k0_pay28 (F := Ideal) (k0_pay20 v4 v6 v8 v12) (k0_pay21 v4 v6 v8 v12) (k0_pay22 v4 v6 v8 v12) (k0_pay23 v4 v6 v8 v12) (k0_pay24 v4 v6 v8 v12) (k0_pay25 v4 v6 v8 v12) (k0_pay26 v4 v6 v8 v12) (k0_pay27 v4 v6 v8 v12) (ix3 a j f)
      = angular (cosAngle (v4 (ix2 a j)) (v6 (ix2 a j)) (v8 (ix2 a j)) (v12 (ix2 a j))) f := by
  unfold k0_pay28
  refine (columns_apply _ _ _ _ _ _ _ _ _ a j f).trans ?_
  match f with
  | ⟨0, _⟩ => exact pay24_apply v4 v6 v8 v12 a j 0
  | ⟨1, _⟩ => exact pay25_apply v4 v6 v8 v12 a j 0
  | ⟨2, _⟩ => exact pay26_apply v4 v6 v8 v12 a j 0
  | ⟨3, _⟩ => exact pay27_apply v4 v6 v8 v12 a j 0
  | ⟨4, _⟩ => exact pay20_apply v4 v6 v8 v12 a j 0
  | ⟨5, _⟩ => exact pay21_apply v4 v6 v8 v12 a j 0
  | ⟨6, _⟩ => exact pay22_apply v4 v6 v8 v12 a j 0
  | ⟨7, _⟩ => exact pay23_apply v4 v6 v8 v12 a j 0

/-! ## The stored accumulator -/
/-- The store's payload over its seven operands: the held accumulator plus the contraction of the two masked factors. -/
private theorem pay1_apply (v14 : FVec Ideal S128x256 .f32) (v44 : FVec Ideal S128x256x32 .f32) (v90 : FVec Ideal S128x256x8 .f32)
    (v119 v128 : FVec Ideal S128x256 .f32) (v130 : IVec S128x256 1) (v145 : Vec Ideal S128x256 .f32) (a : Fin 128) (q : Fin 256) :
    k0_pay1 (F := Ideal) v14 v44 v90 v119 v128 v130 v145 (ix2 a q)
      = v145 (ix2 a q) + ∑ j : Fin 256,
          (v44 (ix3 a j (⟨q.val / 8, by omega⟩ : Fin 32))
              * (v119 (ix2 a j) * (v128 (ix2 a j) * (((v130 (ix2 a j)).setWidth 32).toInt : ℝ))) * v14 (ix2 a j))
            * (v90 (ix3 a j (⟨q.val % 8, Nat.mod_lt _ (by decide)⟩ : Fin 8)) * v14 (ix2 a j)) := by
  unfold k0_pay1
  refine (congrFun (shapeCast_self _ _) (ix2 a q)).trans ?_
  refine congrArg (v145 (ix2 a q) + ·) ?_
  refine (flatten_apply _ _ a q).trans ?_
  refine (contract_apply _ _ a _ _).trans ?_
  refine Finset.sum_congr rfl fun j _ => ?_
  simp only [mulf_apply, column_apply]
  rfl

/-- The stored accumulator at entry `(a, q)`. -/
theorem stored_apply (x0 x1 x2 : Vec Ideal S1x128x256 .f32) (x3 : Vec Ideal S1x128x256 .i32) (x4 : Vec Ideal S32 .f32)
    (acc : Vec Ideal S128x256 .f32) (a : Fin 128) (q : Fin 256) :
    stored (F := Ideal) x0 x1 x2 x3 x4 acc (ix2 a q)
      = acc (ix2 a q) + ∑ j : Fin 256,
          left (x0 (ix3 0 a j)) (x1 (ix3 0 a j)) (x2 (ix3 0 a j)) (x4 (ix1 ⟨q.val / 8, by omega⟩)) (x3 (ix3 0 a j))
            * right (x0 (ix3 0 a j)) (x1 (ix3 0 a j)) (x2 (ix3 0 a j)) (x3 (ix3 0 a j)) ⟨q.val % 8, Nat.mod_lt _ (by decide)⟩ := by
  unfold stored
  refine (pay1_apply _ _ _ _ _ _ _ a q).trans ?_
  refine congrArg (acc (ix2 a q) + ·) (Finset.sum_congr rfl fun j _ => ?_)
  rw [radial_apply, pay29_apply, pay30_31_apply, pay8_apply, angular_apply, pay4_apply, pay5_apply, pay6_apply, pay7_apply]
  rfl

/-- The value the first step of a row of eight stores before it accumulates: zero everywhere. -/
theorem reset_apply (i : S128x256.Idx) : k0_pay3 (F := Ideal) i = 0 := by
  unfold k0_pay3
  refine (congrFun (shapeCast_self _ _) i).trans ?_
  exact Ideal.ofBits_zero_f32

end Cert.KernelIdeal.Body

end
-- ==== Proof.Tiles.lean ====
/-
  A sum over the 2048 triples of an atom is the sum, over the eight tiles of 256 triples, of each tile's sum:
  triple `k` is triple `j` of tile `s` for exactly one `(s, j)`, `k = 256·s + j`.
-/
import Mathlib.Algebra.BigOperators.Fin
import Mathlib.Algebra.BigOperators.Intervals
import Mathlib.Logic.Equiv.Fin.Basic

namespace Cert.Descriptor

/-- Triple `j` of tile `s` (the tile's number taken mod 8, so that every natural names a tile). -/
def tripleOf (s : ℕ) (j : Fin 256) : Fin 2048 :=
  ⟨256 * (s % 8) + j.val, by have := j.isLt; have := Nat.mod_lt s (by decide : 0 < 8); omega⟩

/-- The sum over all triples, tile by tile. -/
theorem sum_tiles {M : Type*} [AddCommMonoid M] (f : Fin 2048 → M) :
    ∑ k : Fin 2048, f k = ∑ s ∈ Finset.range 8, ∑ j : Fin 256, f (tripleOf s j) := by
  rw [Finset.sum_range fun s => ∑ j : Fin 256, f (tripleOf s j)]
  rw [← Fintype.sum_prod_type' (fun (s : Fin 8) (j : Fin 256) => f (tripleOf s.val j))]
  rw [← (finProdFinEquiv (m := 8) (n := 256)).sum_comp f]
  refine Finset.sum_congr rfl fun p _ => congrArg f (Fin.ext ?_)
  have h8 : p.1.val % 8 = p.1.val := Nat.mod_eq_of_lt p.1.isLt
  show p.2.val + 256 * p.1.val = 256 * (p.1.val % 8) + p.2.val
  rw [h8]; omega

end Cert.Descriptor
-- ==== Proof.KernelValue.lean ====
/-
  The kernel's result array is the descriptor of its five argument arrays.

  Grid step `t = 8·b + s` reads tile `s` (triples `256·s … 256·s + 255`) of atom batch `b` of the three distance
  arrays and of the mask, and all 32 Gaussian centres; it adds to the carried accumulator, entry `(a, q)`, the sum
  over the tile's triples of left · right — after zeroing it when `s = 0`. So after step `8·b + 7` the accumulator
  holds, entry by entry, `0` plus the eight tiles' sums, which is the sum over all 2048 triples; that step copies it
  into block `b` of the result, and the four blocks `b = 0 … 3` tile the result array.
-/
import proofs.«109276_j2774548873938_1_alg».proof.Proof.Gen.KernelIdeal.Value
import proofs.«109276_j2774548873938_1_alg».proof.Proof.Pieces
import proofs.«109276_j2774548873938_1_alg».proof.Proof.Payload
import proofs.«109276_j2774548873938_1_alg».proof.Proof.Scalars
import proofs.«109276_j2774548873938_1_alg».proof.Proof.Tiles
import Idealize.ShloMosaic.Lib.ValueLayout

set_option maxRecDepth 16384

noncomputable section

namespace Cert.KernelIdeal.Whole

open Cert.KernelIdeal Cert.KernelIdeal.Gen Cert.KernelIdeal.Body Cert.Descriptor
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays and the blocks, at their literal types -/

/-- The three distance arrays, the Gaussian centres and the mask, as the region finds them. -/
abbrev arrX (c : Dev nD) : Vec Ideal S4x128x2048 .f32 := V m c main_arg0
abbrev arrY (c : Dev nD) : Vec Ideal S4x128x2048 .f32 := V m c main_arg1
abbrev arrZ (c : Dev nD) : Vec Ideal S4x128x2048 .f32 := V m c main_arg2
abbrev arrO (c : Dev nD) : Vec Ideal S32 .f32 := V m c main_arg3
abbrev arrW (c : Dev nD) : Vec Ideal S4x128x2048 .i32 := V m c main_arg4

/-- Grid step `t`'s five input blocks. -/
abbrev blkX (c : Dev nD) (t : Fin cfg0.N) : Vec Ideal S1x128x256 .f32 := iblk m c 0 t
abbrev blkY (c : Dev nD) (t : Fin cfg0.N) : Vec Ideal S1x128x256 .f32 := iblk m c 1 t
abbrev blkZ (c : Dev nD) (t : Fin cfg0.N) : Vec Ideal S1x128x256 .f32 := iblk m c 2 t
abbrev blkW (c : Dev nD) (t : Fin cfg0.N) : Vec Ideal S1x128x256 .i32 := iblk m c 3 t
abbrev blkO (c : Dev nD) (t : Fin cfg0.N) : Vec Ideal S32 .f32 := iblk m c 4 t

/-- The atom batch a grid step works on: `n / 8` (taken mod 4, so that every natural names a batch). -/
def rowOf (n : ℕ) : Fin 4 := ⟨n / 8 % 4, Nat.mod_lt _ (by decide)⟩

/-- The printed index maps over the 32 grid steps: the four tiled inputs are at block `(t / 8, 0, t % 8)`, the
    centres at block `0`, the result at block `(t / 8, 0, 0)`. -/
theorem idx_facts : ∀ t : Fin cfg0.N,
    win0_0.index t (0 : Fin 3) = t.val / 8 ∧ win0_0.index t (1 : Fin 3) = 0 ∧ win0_0.index t (2 : Fin 3) = t.val % 8
    ∧ win0_1.index t (0 : Fin 3) = t.val / 8 ∧ win0_1.index t (1 : Fin 3) = 0 ∧ win0_1.index t (2 : Fin 3) = t.val % 8
    ∧ win0_2.index t (0 : Fin 3) = t.val / 8 ∧ win0_2.index t (1 : Fin 3) = 0 ∧ win0_2.index t (2 : Fin 3) = t.val % 8
    ∧ win0_3.index t (0 : Fin 3) = t.val / 8 ∧ win0_3.index t (1 : Fin 3) = 0 ∧ win0_3.index t (2 : Fin 3) = t.val % 8
    ∧ win0_4.index t (0 : Fin 1) = 0
    ∧ win0_5.index t (0 : Fin 3) = t.val / 8 ∧ win0_5.index t (1 : Fin 3) = 0 ∧ win0_5.index t (2 : Fin 3) = 0 :=
  (by decide +kernel : ∀ t : Fin grid0.N, _)

/-! ## A block's entry is the array's -/

theorem blkX_apply (c : Dev nD) (t : Fin cfg0.N) (a : Fin 128) (j : Fin 256) :
    blkX m c t (ix3 0 a j) = arrX m c (ix3 (rowOf t.val) a (tripleOf t.val j)) := by
  have hN : t.val < 32 := lt_of_lt_of_eq t.isLt (show cfg0.N = 32 from N_0)
  have e := idx_facts t
  show V m c main_arg0 (((cfg0.win 0).blk t).view.emb (ix3 0 a j)) = V m c main_arg0 _
  congr 1
  funext d; apply Fin.ext
  match d with
  | ⟨0, _⟩ => show win0_0.index t (0 : Fin 3) * 1 + 1 * 0 = t.val / 8 % 4; have := e.1; omega
  | ⟨1, _⟩ => show win0_0.index t (1 : Fin 3) * 128 + 1 * a.val = a.val; have := e.2.1; omega
  | ⟨2, _⟩ => show win0_0.index t (2 : Fin 3) * 256 + 1 * j.val = 256 * (t.val % 8) + j.val; have := e.2.2.1; omega

theorem blkY_apply (c : Dev nD) (t : Fin cfg0.N) (a : Fin 128) (j : Fin 256) :
    blkY m c t (ix3 0 a j) = arrY m c (ix3 (rowOf t.val) a (tripleOf t.val j)) := by
  have hN : t.val < 32 := lt_of_lt_of_eq t.isLt (show cfg0.N = 32 from N_0)
  have e := idx_facts t
  show V m c main_arg1 (((cfg0.win 1).blk t).view.emb (ix3 0 a j)) = V m c main_arg1 _
  congr 1
  funext d; apply Fin.ext
  match d with
  | ⟨0, _⟩ => show win0_1.index t (0 : Fin 3) * 1 + 1 * 0 = t.val / 8 % 4; have := e.2.2.2.1; omega
  | ⟨1, _⟩ => show win0_1.index t (1 : Fin 3) * 128 + 1 * a.val = a.val; have := e.2.2.2.2.1; omega
  | ⟨2, _⟩ => show win0_1.index t (2 : Fin 3) * 256 + 1 * j.val = 256 * (t.val % 8) + j.val; have := e.2.2.2.2.2.1; omega

theorem blkZ_apply (c : Dev nD) (t : Fin cfg0.N) (a : Fin 128) (j : Fin 256) :
    blkZ m c t (ix3 0 a j) = arrZ m c (ix3 (rowOf t.val) a (tripleOf t.val j)) := by
  have hN : t.val < 32 := lt_of_lt_of_eq t.isLt (show cfg0.N = 32 from N_0)
  have e := idx_facts t
  show V m c main_arg2 (((cfg0.win 2).blk t).view.emb (ix3 0 a j)) = V m c main_arg2 _
  congr 1
  funext d; apply Fin.ext
  match d with
  | ⟨0, _⟩ => show win0_2.index t (0 : Fin 3) * 1 + 1 * 0 = t.val / 8 % 4; have := e.2.2.2.2.2.2.1; omega
  | ⟨1, _⟩ => show win0_2.index t (1 : Fin 3) * 128 + 1 * a.val = a.val; have := e.2.2.2.2.2.2.2.1; omega
  | ⟨2, _⟩ => show win0_2.index t (2 : Fin 3) * 256 + 1 * j.val = 256 * (t.val % 8) + j.val; have := e.2.2.2.2.2.2.2.2.1; omega

theorem blkW_apply (c : Dev nD) (t : Fin cfg0.N) (a : Fin 128) (j : Fin 256) :
    blkW m c t (ix3 0 a j) = arrW m c (ix3 (rowOf t.val) a (tripleOf t.val j)) := by
  have hN : t.val < 32 := lt_of_lt_of_eq t.isLt (show cfg0.N = 32 from N_0)
  have e := idx_facts t
  show V m c main_arg4 (((cfg0.win 3).blk t).view.emb (ix3 0 a j)) = V m c main_arg4 _
  congr 1
  funext d; apply Fin.ext
  match d with
  | ⟨0, _⟩ => show win0_3.index t (0 : Fin 3) * 1 + 1 * 0 = t.val / 8 % 4; have := e.2.2.2.2.2.2.2.2.2.1; omega
  | ⟨1, _⟩ => show win0_3.index t (1 : Fin 3) * 128 + 1 * a.val = a.val; have := e.2.2.2.2.2.2.2.2.2.2.1; omega
  | ⟨2, _⟩ => show win0_3.index t (2 : Fin 3) * 256 + 1 * j.val = 256 * (t.val % 8) + j.val; have := e.2.2.2.2.2.2.2.2.2.2.2.1; omega

theorem blkO_apply (c : Dev nD) (t : Fin cfg0.N) (r : Fin 32) : blkO m c t (ix1 r) = arrO m c (ix1 r) := by
  have e := idx_facts t
  show V m c main_arg3 (((cfg0.win 4).blk t).view.emb (ix1 r)) = V m c main_arg3 _
  congr 1
  funext d; apply Fin.ext
  match d with
  | ⟨0, _⟩ => show win0_4.index t (0 : Fin 1) * 32 + 1 * r.val = r.val; have := e.2.2.2.2.2.2.2.2.2.2.2.2.1; omega

/-! ## One step's addend, and the fold -/

/-- What grid step `n` adds to entry `i = (a, q)` of the accumulator: its tile's sum of left · right. -/
def addend (c : Dev nD) (n : ℕ) (i : S128x256.Idx) : EReal :=
  ∑ j : Fin 256,
    left (arrX m c (ix3 (rowOf n) (i 0) (tripleOf n j))) (arrY m c (ix3 (rowOf n) (i 0) (tripleOf n j)))
        (arrZ m c (ix3 (rowOf n) (i 0) (tripleOf n j))) (arrO m c (ix1 ⟨(i 1).val / 8, by have h : (i 1).val < 256 := (i 1).isLt; omega⟩))
        (arrW m c (ix3 (rowOf n) (i 0) (tripleOf n j)))
      * right (arrX m c (ix3 (rowOf n) (i 0) (tripleOf n j))) (arrY m c (ix3 (rowOf n) (i 0) (tripleOf n j)))
        (arrZ m c (ix3 (rowOf n) (i 0) (tripleOf n j))) (arrW m c (ix3 (rowOf n) (i 0) (tripleOf n j)))
        ⟨(i 1).val % 8, Nat.mod_lt _ (by decide)⟩

/-- A step stores the held accumulator plus its addend. -/
theorem step_apply (c : Dev nD) (t : Fin cfg0.N) (acc : Vec Ideal S128x256 .f32) (i : S128x256.Idx) :
    stored (F := Ideal) (blkX m c t) (blkY m c t) (blkZ m c t) (blkW m c t) (blkO m c t) acc i = acc i + addend m c t.val i := by
  obtain ⟨a, q, rfl⟩ : ∃ (a : Fin 128) (q : Fin 256), i = ix2 a q := ⟨i 0, i 1, eq_ix2 i⟩
  refine (stored_apply (blkX m c t) (blkY m c t) (blkZ m c t) (blkW m c t) (blkO m c t) acc a q).trans ?_
  refine congrArg (fun z => acc (ix2 a q) + z) (Finset.sum_congr rfl fun j _ => ?_)
  rw [blkX_apply m c t a j, blkY_apply m c t a j, blkZ_apply m c t a j, blkW_apply m c t a j,
    blkO_apply m c t ⟨q.val / 8, by omega⟩]

/-- The first step of a row of eight leaves `0` plus its addend … -/
theorem first_step (c : Dev nD) (n : ℕ) (hn : n < cfg0.N) (h0 : n % 8 = 0) (acc : Vec Ideal S128x256 .f32) (i : S128x256.Idx) :
    Value.scAt0_0 m c n hn acc i = 0 + addend m c n i := by
  have h7 : ¬n % 8 = 7 := by omega
  unfold Value.scAt0_0
  rw [dif_pos h0, dif_neg h7]
  refine (congrFun (sout_A (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) _ _ (iblk m c 0 ⟨n, hn⟩) (iblk m c 1 ⟨n, hn⟩) (iblk m c 2 ⟨n, hn⟩) (iblk m c 3 ⟨n, hn⟩) (iblk m c 4 ⟨n, hn⟩)) i).trans ?_
  refine (step_apply m c ⟨n, hn⟩ (k0_pay3 (F := Ideal)) i).trans ?_
  rw [reset_apply]

/-- … and every later step what the accumulator held plus its addend. -/
theorem later_step (c : Dev nD) (n : ℕ) (hn : n < cfg0.N) (h0 : ¬n % 8 = 0) (acc : Vec Ideal S128x256 .f32) (i : S128x256.Idx) :
    Value.scAt0_0 m c n hn acc i = acc i + addend m c n i := by
  unfold Value.scAt0_0
  rw [dif_neg h0]
  by_cases h7 : n % 8 = 7
  · rw [dif_pos h7]
    refine (congrFun (sout_C (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) _ _ (iblk m c 0 ⟨n, hn⟩) (iblk m c 1 ⟨n, hn⟩) (iblk m c 2 ⟨n, hn⟩) (iblk m c 3 ⟨n, hn⟩) (iblk m c 4 ⟨n, hn⟩) acc) i).trans ?_
    exact step_apply m c ⟨n, hn⟩ acc i
  · rw [dif_neg h7]
    refine (congrFun (sout_B (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) _ _ (iblk m c 0 ⟨n, hn⟩) (iblk m c 1 ⟨n, hn⟩) (iblk m c 2 ⟨n, hn⟩) (iblk m c 3 ⟨n, hn⟩) (iblk m c 4 ⟨n, hn⟩) acc) i).trans ?_
    exact step_apply m c ⟨n, hn⟩ acc i

/-- The accumulator after step `t`: `0` plus the addends of its row's steps so far. -/
theorem scratch_after (c : Dev nD) (t : Fin cfg0.N) (i : S128x256.Idx) :
    (outsAt0 m c t.val t.isLt).2 i = 0 + ∑ s ∈ Finset.range (t.val % 8 + 1), addend m c (8 * (t.val / 8) + s) i := by
  rw [Value.soutsAt0_0_eq m c t]
  exact Pipeline.accAt_add_apply _ _ (fun _ => 0) (addend m c) (8 * (t.val / 8)) 7
    (fun h i => first_step m c _ h (Nat.mul_mod_right 8 _) _ i)
    (fun n h acc i h1 h2 => later_step m c n h (by omega) acc i)
    (t.val % 8) (by have := Nat.mod_lt t.val (by decide : 0 < 8); omega) _ i

/-! ## The write-back is a block of the descriptor -/

/-- At a last step of a row the accumulator is the stored value over what the step before left … -/
theorem scratch_last (c : Dev nD) (t : Fin cfg0.N) (h0 : ¬t.val % 8 = 0) (h7 : t.val % 8 = 7) :
    (outsAt0 m c t.val t.isLt).2
      = stored (F := Ideal) (blkX m c t) (blkY m c t) (blkZ m c t) (blkW m c t) (blkO m c t) (outsAt0 m c (t.val - 1) (Nat.lt_of_le_of_lt (Nat.sub_le _ _) t.isLt)).2 := by
  rw [outsAt0_C m c t h0 h7]
  dsimp only
  exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _

/-- … and the block written back is that accumulator with a leading unit axis. -/
theorem flushed_last (c : Dev nD) (t : Fin cfg0.N) (h0 : ¬t.val % 8 = 0) (h7 : t.val % 8 = 7) :
    (dats m 0 c).flushed 5 t = (cfg0.win 5).cut (grid0.coords t) (k0_pay2 (F := Ideal) (outsAt0 m c t.val t.isLt).2) := by
  rw [Value.flushed5_C m c t h0 h7, scratch_last m c t h0 h7]
  exact congrArg ((cfg0.win 5).cut (grid0.coords t))
    (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) _ _ (iblk m c 0 t) (iblk m c 1 t) (iblk m c 2 t) (iblk m c 3 t) (iblk m c 4 t) _)

/-- WHAT A FLUSHING STEP WRITES BACK is its block of the descriptor of the argument arrays. -/
theorem flushed_eq (c : Dev nD) (t : Fin cfg0.N) (hf : (cfg0.win 5).flush t = true) :
    (dats m 0 c).flushed 5 t
      = ((cfg0.win 5).blk t).view.read (Elt Ideal) (G (arrX m c) (arrY m c) (arrZ m c) (arrO m c) (arrW m c)) := by
  have h7 : t.val % 8 = 7 := (flush0_5 t).mp hf
  have h0 : ¬t.val % 8 = 0 := by omega
  have hN : t.val < 32 := lt_of_lt_of_eq t.isLt (show cfg0.N = 32 from N_0)
  have e := idx_facts t
  rw [flushed_last m c t h0 h7]
  funext y
  obtain ⟨u, a, q, rfl⟩ : ∃ (u : Fin 1) (a : Fin 128) (q : Fin 256), y = ix3 u a q := ⟨y 0, y 1, y 2, eq_ix3 y⟩
  have hemb : ((cfg0.win 5).blk t).view.emb (ix3 u a q) = ix3 (rowOf t.val) a q := by
    funext d; apply Fin.ext
    match d with
    | ⟨0, _⟩ => show win0_5.index t (0 : Fin 3) * 1 + 1 * u.val = t.val / 8 % 4; have := e.2.2.2.2.2.2.2.2.2.2.2.2.2.1; have := u.isLt; omega
    | ⟨1, _⟩ => show win0_5.index t (1 : Fin 3) * 128 + 1 * a.val = a.val; have := e.2.2.2.2.2.2.2.2.2.2.2.2.2.2.1; omega
    | ⟨2, _⟩ => show win0_5.index t (2 : Fin 3) * 256 + 1 * q.val = q.val; have := e.2.2.2.2.2.2.2.2.2.2.2.2.2.2.2; omega
  show k0_pay2 (F := Ideal) (outsAt0 m c t.val t.isLt).2 (ix3 u a q) = G (arrX m c) (arrY m c) (arrZ m c) (arrO m c) (arrW m c) (((cfg0.win 5).blk t).view.emb (ix3 u a q))
  rw [hemb]
  have hcast : k0_pay2 (F := Ideal) (outsAt0 m c t.val t.isLt).2 (ix3 u a q) = (outsAt0 m c t.val t.isLt).2 (ix2 a q) := by
    unfold k0_pay2
    exact shapeCast_apply _ shapeCasts_S128x256_S1x128x256 (ix3 u a q) (ix2 a q)
      (by rewrite [Shape.rowMajor_val_two, Shape.rowMajor_val_three]; have := u.isLt; show a.val * 256 + q.val = (u.val * 128 + a.val) * 256 + q.val; omega)
  rw [hcast, scratch_after m c t (ix2 a q), h7, zero_add]
  unfold G
  rw [sum_tiles]
  refine Finset.sum_congr rfl fun s hs => ?_
  have hs8 : s < 8 := Finset.mem_range.mp hs
  have hrow : rowOf (8 * (t.val / 8) + s) = rowOf t.val := Fin.ext (by show (8 * (t.val / 8) + s) / 8 % 4 = t.val / 8 % 4; omega)
  have htri : ∀ j : Fin 256, tripleOf (8 * (t.val / 8) + s) j = tripleOf s j := fun j => Fin.ext (by show 256 * ((8 * (t.val / 8) + s) % 8) + j.val = 256 * (s % 8) + j.val; omega)
  unfold addend term
  refine Finset.sum_congr rfl fun j _ => ?_
  rw [hrow, htri]
  rfl

/-! ## The blocks tile the result, and the run -/

/-- Every entry of the result array is in the block its batch's last step writes back. -/
theorem covered (i : S4x128x256.Idx) :
    ∃ t : Fin cfg0.N, (cfg0.win 5).flush t = true ∧ i ∈ ((cfg0.win 5).blk t).view.set := by
  have hi0 : (i 0).val < 4 := (i 0).isLt
  have hi1 : (i 1).val < 128 := (i 1).isLt
  have hi2 : (i 2).val < 256 := (i 2).isLt
  have hN : cfg0.N = 32 := N_0
  let t : Fin cfg0.N := ⟨8 * (i 0).val + 7, by omega⟩
  have e := idx_facts t
  refine ⟨t, (flush0_5 t).mpr (by show (8 * (i 0).val + 7) % 8 = 7; omega), ?_⟩
  show i ∈ ((View.whole main_v0).slice (win0_5.rect t)).set
  rw [View.set_slice_whole, Rect.mem_set_unit]
  intro d
  have ht : t.val = 8 * (i 0).val + 7 := rfl
  match d with
  | ⟨0, _⟩ => show win0_5.index t (0 : Fin 3) * 1 ≤ (i 0).val ∧ (i 0).val < win0_5.index t (0 : Fin 3) * 1 + 1; have := e.2.2.2.2.2.2.2.2.2.2.2.2.2.1; omega
  | ⟨1, _⟩ => show win0_5.index t (1 : Fin 3) * 128 ≤ (i 1).val ∧ (i 1).val < win0_5.index t (1 : Fin 3) * 128 + 128; have := e.2.2.2.2.2.2.2.2.2.2.2.2.2.2.1; omega
  | ⟨2, _⟩ => show win0_5.index t (2 : Fin 3) * 256 ≤ (i 2).val ∧ (i 2).val < win0_5.index t (2 : Fin 3) * 256 + 256; have := e.2.2.2.2.2.2.2.2.2.2.2.2.2.2.2; omega

/-- THE RESULT ARRAY after the run is the descriptor of the argument arrays. -/
theorem final (c : Dev nD) :
    (dats m 0 c).arrAt 5 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (flushed_eq m c) covered

/-- The run, read: the result at the descriptor, the five arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefIsG.lean ====
/-
  The reference computes the descriptor: its result array, entry by entry, is the sum over an atom's 2048 triples
  of left · right — the `dot_general` over the triples of the two masked factors, flattened from `[4,128,32,8]`.
-/
import proofs.«109276_j2774548873938_1_alg».proof.Proof.Gen.ReferenceIdeal.Read
import proofs.«109276_j2774548873938_1_alg».proof.Proof.Scalars

noncomputable section

namespace Cert.ReferenceIdeal.RefValue

open Cert.ReferenceIdeal Cert.ReferenceIdeal.Read Cert.Descriptor Idealize.ShloMosaic Idealize.ShloMosaic.ValueIdx

section Pieces

/-- Two rank-3 indices with the same three coordinates are equal. -/
local macro "coords3" : tactic =>
  `(tactic| (funext d; apply Fin.ext; match d with | ⟨0, _⟩ => rfl | ⟨1, _⟩ => rfl | ⟨2, _⟩ => rfl))

/-- Two rank-1 indices with the same coordinate are equal. -/
local macro "coords1" : tactic =>
  `(tactic| (funext d; apply Fin.ext; match d with | ⟨0, _⟩ => rfl))

variable (X Y Z : (⟨S4x128x2048, .f32⟩ : BufTy).Contents (Elt Ideal)) (O : (⟨S32, .f32⟩ : BufTy).Contents (Elt Ideal)) (W : (⟨S4x128x2048, .i32⟩ : BufTy).Contents (Elt Ideal))

/-! ### The scalar pieces at one triple -/

/-- The mask's comparison at a triple is the flag of its mask word. -/
private theorem flag_apply (j : S4x128x2048.Idx) : val_main_v1 (F := Ideal) W j = flag (W j) := by
  simp only [val_main_v1_apply, val_main_v0_apply, val_main_c_apply]
  rfl

/-- The mask's factor at a triple is the indicator of that flag. -/
private theorem mask_apply (j : S4x128x2048.Idx) : val_main_v2 (F := Ideal) W j = ind (flag (W j)) := by
  rw [val_main_v2_apply, flag_apply]
  rfl

/-- The first distance's cutoff at a triple. -/
private theorem cutX_apply (j : S4x128x2048.Idx) : val_main_v107 (F := Ideal) X j = cutoff (X j) := by
  simp only [val_main_v107_apply, val_main_v103_apply, val_main_v102_apply, val_main_cst_23_apply, val_main_v101_apply, val_main_v99_apply, val_main_v98_apply, val_main_v96_apply, val_main_v95_apply, val_main_cst_20_apply, val_main_v97_apply, val_main_cst_21_apply, val_main_v100_apply, val_main_cst_22_apply, val_main_v106_apply, val_main_v105_apply, val_main_v104_apply, val_main_cst_24_apply]
  rfl

/-- The second distance's cutoff at a triple. -/
private theorem cutY_apply (j : S4x128x2048.Idx) : val_main_v120 (F := Ideal) Y j = cutoff (Y j) := by
  simp only [val_main_v120_apply, val_main_v116_apply, val_main_v115_apply, val_main_cst_28_apply, val_main_v114_apply, val_main_v112_apply, val_main_v111_apply, val_main_v109_apply, val_main_v108_apply, val_main_cst_25_apply, val_main_v110_apply, val_main_cst_26_apply, val_main_v113_apply, val_main_cst_27_apply, val_main_v119_apply, val_main_v118_apply, val_main_v117_apply, val_main_cst_29_apply]
  rfl

/-- The third distance's cutoff at a triple. -/
private theorem cutZ_apply (j : S4x128x2048.Idx) : val_main_v134 (F := Ideal) Z j = cutoff (Z j) := by
  simp only [val_main_v134_apply, val_main_v130_apply, val_main_v129_apply, val_main_cst_33_apply, val_main_v128_apply, val_main_v126_apply, val_main_v125_apply, val_main_v123_apply, val_main_v122_apply, val_main_cst_30_apply, val_main_v124_apply, val_main_cst_31_apply, val_main_v127_apply, val_main_cst_32_apply, val_main_v133_apply, val_main_v132_apply, val_main_v131_apply, val_main_cst_34_apply]
  rfl

/-- The product of the three cutoffs at a triple. -/
private theorem cut_apply (j : S4x128x2048.Idx) :
    val_main_v135 (F := Ideal) X Y Z j = cutoff (X j) * cutoff (Y j) * cutoff (Z j) := by
  rw [val_main_v135_apply, val_main_v121_apply, cutX_apply, cutY_apply, cutZ_apply]
  rfl

/-- The masked law-of-cosines angle at a triple. -/
private theorem cos_apply (j : S4x128x2048.Idx) :
    val_main_v41 (F := Ideal) X Y Z W j = cosAngle (X j) (Y j) (Z j) (flag (W j)) := by
  rw [val_main_v41_apply, flag_apply]
  simp only [val_main_v40_apply, val_main_v36_apply, val_main_v34_apply, val_main_v32_apply, val_main_v33_apply, val_main_v35_apply, val_main_v39_apply, val_main_v38_apply, val_main_v37_apply, val_main_cst_2_apply, val_main_call0_v1_apply, val_main_call0_v0_apply, val_main_cst_3_apply]
  rfl

/-- Angular filter 0 of the masked angle at a triple. -/
private theorem ang0_apply (j : S4x128x2048.Idx) :
    val_main_v45 (F := Ideal) X Y Z W j = angular (cosAngle (X j) (Y j) (Z j) (flag (W j))) ⟨0, by decide⟩ := by
  simp only [val_main_v45_apply, val_main_v44_apply, val_main_cst_5_apply, val_main_v43_apply, val_main_v42_apply, val_main_cst_4_apply, cos_apply]
  rfl

/-- Angular filter 1 of the masked angle at a triple. -/
private theorem ang1_apply (j : S4x128x2048.Idx) :
    val_main_v50 (F := Ideal) X Y Z W j = angular (cosAngle (X j) (Y j) (Z j) (flag (W j))) ⟨1, by decide⟩ := by
  simp only [val_main_v50_apply, val_main_v49_apply, val_main_cst_7_apply, val_main_v48_apply, val_main_v47_apply, val_main_v46_apply, val_main_cst_6_apply, cos_apply]
  rfl

/-- Angular filter 2 of the masked angle at a triple. -/
private theorem ang2_apply (j : S4x128x2048.Idx) :
    val_main_v56 (F := Ideal) X Y Z W j = angular (cosAngle (X j) (Y j) (Z j) (flag (W j))) ⟨2, by decide⟩ := by
  simp only [val_main_v56_apply, val_main_v55_apply, val_main_cst_9_apply, val_main_v54_apply, val_main_v53_apply, val_main_v52_apply, val_main_v51_apply, val_main_cst_8_apply, cos_apply]
  rfl

/-- Angular filter 3 of the masked angle at a triple. -/
private theorem ang3_apply (j : S4x128x2048.Idx) :
    val_main_v63 (F := Ideal) X Y Z W j = angular (cosAngle (X j) (Y j) (Z j) (flag (W j))) ⟨3, by decide⟩ := by
  simp only [val_main_v63_apply, val_main_v62_apply, val_main_cst_11_apply, val_main_v61_apply, val_main_v60_apply, val_main_v59_apply, val_main_v58_apply, val_main_v57_apply, val_main_cst_10_apply, cos_apply]
  rfl

/-- Angular filter 4 of the masked angle at a triple. -/
private theorem ang4_apply (j : S4x128x2048.Idx) :
    val_main_v67 (F := Ideal) X Y Z W j = angular (cosAngle (X j) (Y j) (Z j) (flag (W j))) ⟨4, by decide⟩ := by
  simp only [val_main_v67_apply, val_main_v66_apply, val_main_cst_13_apply, val_main_v65_apply, val_main_v64_apply, val_main_cst_12_apply, cos_apply]
  rfl

/-- Angular filter 5 of the masked angle at a triple. -/
private theorem ang5_apply (j : S4x128x2048.Idx) :
    val_main_v72 (F := Ideal) X Y Z W j = angular (cosAngle (X j) (Y j) (Z j) (flag (W j))) ⟨5, by decide⟩ := by
  simp only [val_main_v72_apply, val_main_v71_apply, val_main_cst_15_apply, val_main_v70_apply, val_main_v69_apply, val_main_v68_apply, val_main_cst_14_apply, cos_apply]
  rfl

/-- Angular filter 6 of the masked angle at a triple. -/
private theorem ang6_apply (j : S4x128x2048.Idx) :
    val_main_v78 (F := Ideal) X Y Z W j = angular (cosAngle (X j) (Y j) (Z j) (flag (W j))) ⟨6, by decide⟩ := by
  simp only [val_main_v78_apply, val_main_v77_apply, val_main_cst_17_apply, val_main_v76_apply, val_main_v75_apply, val_main_v74_apply, val_main_v73_apply, val_main_cst_16_apply, cos_apply]
  rfl

/-- Angular filter 7 of the masked angle at a triple. -/
private theorem ang7_apply (j : S4x128x2048.Idx) :
    val_main_v85 (F := Ideal) X Y Z W j = angular (cosAngle (X j) (Y j) (Z j) (flag (W j))) ⟨7, by decide⟩ := by
  simp only [val_main_v85_apply, val_main_v84_apply, val_main_cst_19_apply, val_main_v83_apply, val_main_v82_apply, val_main_v81_apply, val_main_v80_apply, val_main_v79_apply, val_main_cst_18_apply, cos_apply]
  rfl

/-! ### The two factors at one triple, through the broadcasts -/

section AtTriple
variable (b : Fin 4) (a : Fin 128) (k : Fin 2048)

/-- The radial part at a triple and a centre. -/
private theorem radial_apply (r : Fin 32) :
    val_main_v31 (F := Ideal) X Y Z O (ix4 b a k r)
      = radial (X (ix3 b a k)) (Y (ix3 b a k)) (Z (ix3 b a k)) (O (ix1 r)) := by
  have eX : idx_main_v3 (idx_main_v5 (ix4 b a k r)) = ix3 b a k := by coords3
  have eY : idx_main_v12 (idx_main_v14 (ix4 b a k r)) = ix3 b a k := by coords3
  have eZ : idx_main_v22 (idx_main_v24 (ix4 b a k r)) = ix3 b a k := by coords3
  have eO1 : idx_main_v4 (idx_main_v6 (ix4 b a k r)) = ix1 r := by coords1
  have eO2 : idx_main_v13 (idx_main_v15 (ix4 b a k r)) = ix1 r := by coords1
  have eO3 : idx_main_v23 (idx_main_v25 (ix4 b a k r)) = ix1 r := by coords1
  simp only [val_main_v31_apply, val_main_v21_apply, val_main_v11_apply, val_main_v10_apply, val_main_v9_apply, val_main_cst_apply, val_main_v8_apply, val_main_v7_apply, val_main_v5_apply, val_main_v3_apply, val_main_v6_apply, val_main_v4_apply, val_main_v20_apply, val_main_v19_apply, val_main_v18_apply, val_main_cst_0_apply, val_main_v17_apply, val_main_v16_apply, val_main_v14_apply, val_main_v12_apply, val_main_v15_apply, val_main_v13_apply, val_main_v30_apply, val_main_v29_apply, val_main_v28_apply, val_main_cst_1_apply, val_main_v27_apply, val_main_v26_apply, val_main_v24_apply, val_main_v22_apply, val_main_v25_apply, val_main_v23_apply]
  rw [eX, eY, eZ, eO1, eO2, eO3]
  rfl

/-- The left factor at a triple and a centre: radial part, cutoffs, mask. -/
private theorem left_apply (r : Fin 32) :
    val_main_v144 (F := Ideal) X Y Z O W (ix4 b a k r)
      = left (X (ix3 b a k)) (Y (ix3 b a k)) (Z (ix3 b a k)) (O (ix1 r)) (W (ix3 b a k)) := by
  have eC : idx_main_v136 (idx_main_v137 (ix4 b a k r)) = ix3 b a k := by coords3
  have eM : idx_main_v142 (idx_main_v143 (ix4 b a k r)) = ix3 b a k := by coords3
  rw [val_main_v144_apply, val_main_v138_apply, val_main_v143_apply, val_main_v142_apply, val_main_v137_apply,
    val_main_v136_apply, eC, eM, radial_apply, cut_apply, mask_apply]
  rfl

/-- Column 0 of the joined filters at a triple is piece 0, which is filter 0 there. -/
private theorem col0_apply (h : 0 < 8) :
    val_main_v94 (F := Ideal) X Y Z W (ix4 b a k ⟨0, h⟩)
      = angular (cosAngle (X (ix3 b a k)) (Y (ix3 b a k)) (Z (ix3 b a k)) (flag (W (ix3 b a k)))) ⟨0, h⟩ := by
  have e : idx_main_v86 (ix4 b a k (0 : Fin 1)) = ix3 b a k := by coords3
  have hp : val_main_v94 (F := Ideal) X Y Z W (ix4 b a k ⟨0, h⟩)
      = val_main_v86 (F := Ideal) X Y Z W (ix4 b a k (0 : Fin 1)) := by
    unfold val_main_v94
    refine concatenate_apply_piece (3 : Fin 4) _ _ (ix4 b a k ⟨0, h⟩) 0 ?hk S4x128x2048x1 _ ?hxk ?hr 0 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v86_apply, e, ang0_apply]

/-- Column 1 of the joined filters at a triple is piece 1, which is filter 1 there. -/
private theorem col1_apply (h : 1 < 8) :
    val_main_v94 (F := Ideal) X Y Z W (ix4 b a k ⟨1, h⟩)
      = angular (cosAngle (X (ix3 b a k)) (Y (ix3 b a k)) (Z (ix3 b a k)) (flag (W (ix3 b a k)))) ⟨1, h⟩ := by
  have e : idx_main_v87 (ix4 b a k (0 : Fin 1)) = ix3 b a k := by coords3
  have hp : val_main_v94 (F := Ideal) X Y Z W (ix4 b a k ⟨1, h⟩)
      = val_main_v87 (F := Ideal) X Y Z W (ix4 b a k (0 : Fin 1)) := by
    unfold val_main_v94
    refine concatenate_apply_piece (3 : Fin 4) _ _ (ix4 b a k ⟨1, h⟩) 1 ?hk S4x128x2048x1 _ ?hxk ?hr 1 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v87_apply, e, ang1_apply]

/-- Column 2 of the joined filters at a triple is piece 2, which is filter 2 there. -/
private theorem col2_apply (h : 2 < 8) :
    val_main_v94 (F := Ideal) X Y Z W (ix4 b a k ⟨2, h⟩)
      = angular (cosAngle (X (ix3 b a k)) (Y (ix3 b a k)) (Z (ix3 b a k)) (flag (W (ix3 b a k)))) ⟨2, h⟩ := by
  have e : idx_main_v88 (ix4 b a k (0 : Fin 1)) = ix3 b a k := by coords3
  have hp : val_main_v94 (F := Ideal) X Y Z W (ix4 b a k ⟨2, h⟩)
      = val_main_v88 (F := Ideal) X Y Z W (ix4 b a k (0 : Fin 1)) := by
    unfold val_main_v94
    refine concatenate_apply_piece (3 : Fin 4) _ _ (ix4 b a k ⟨2, h⟩) 2 ?hk S4x128x2048x1 _ ?hxk ?hr 2 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v88_apply, e, ang2_apply]

/-- Column 3 of the joined filters at a triple is piece 3, which is filter 3 there. -/
private theorem col3_apply (h : 3 < 8) :
    val_main_v94 (F := Ideal) X Y Z W (ix4 b a k ⟨3, h⟩)
      = angular (cosAngle (X (ix3 b a k)) (Y (ix3 b a k)) (Z (ix3 b a k)) (flag (W (ix3 b a k)))) ⟨3, h⟩ := by
  have e : idx_main_v89 (ix4 b a k (0 : Fin 1)) = ix3 b a k := by coords3
  have hp : val_main_v94 (F := Ideal) X Y Z W (ix4 b a k ⟨3, h⟩)
      = val_main_v89 (F := Ideal) X Y Z W (ix4 b a k (0 : Fin 1)) := by
    unfold val_main_v94
    refine concatenate_apply_piece (3 : Fin 4) _ _ (ix4 b a k ⟨3, h⟩) 3 ?hk S4x128x2048x1 _ ?hxk ?hr 3 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v89_apply, e, ang3_apply]

/-- Column 4 of the joined filters at a triple is piece 4, which is filter 4 there. -/
private theorem col4_apply (h : 4 < 8) :
    val_main_v94 (F := Ideal) X Y Z W (ix4 b a k ⟨4, h⟩)
      = angular (cosAngle (X (ix3 b a k)) (Y (ix3 b a k)) (Z (ix3 b a k)) (flag (W (ix3 b a k)))) ⟨4, h⟩ := by
  have e : idx_main_v90 (ix4 b a k (0 : Fin 1)) = ix3 b a k := by coords3
  have hp : val_main_v94 (F := Ideal) X Y Z W (ix4 b a k ⟨4, h⟩)
      = val_main_v90 (F := Ideal) X Y Z W (ix4 b a k (0 : Fin 1)) := by
    unfold val_main_v94
    refine concatenate_apply_piece (3 : Fin 4) _ _ (ix4 b a k ⟨4, h⟩) 4 ?hk S4x128x2048x1 _ ?hxk ?hr 4 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v90_apply, e, ang4_apply]

/-- Column 5 of the joined filters at a triple is piece 5, which is filter 5 there. -/
private theorem col5_apply (h : 5 < 8) :
    val_main_v94 (F := Ideal) X Y Z W (ix4 b a k ⟨5, h⟩)
      = angular (cosAngle (X (ix3 b a k)) (Y (ix3 b a k)) (Z (ix3 b a k)) (flag (W (ix3 b a k)))) ⟨5, h⟩ := by
  have e : idx_main_v91 (ix4 b a k (0 : Fin 1)) = ix3 b a k := by coords3
  have hp : val_main_v94 (F := Ideal) X Y Z W (ix4 b a k ⟨5, h⟩)
      = val_main_v91 (F := Ideal) X Y Z W (ix4 b a k (0 : Fin 1)) := by
    unfold val_main_v94
    refine concatenate_apply_piece (3 : Fin 4) _ _ (ix4 b a k ⟨5, h⟩) 5 ?hk S4x128x2048x1 _ ?hxk ?hr 5 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v91_apply, e, ang5_apply]

/-- Column 6 of the joined filters at a triple is piece 6, which is filter 6 there. -/
private theorem col6_apply (h : 6 < 8) :
    val_main_v94 (F := Ideal) X Y Z W (ix4 b a k ⟨6, h⟩)
      = angular (cosAngle (X (ix3 b a k)) (Y (ix3 b a k)) (Z (ix3 b a k)) (flag (W (ix3 b a k)))) ⟨6, h⟩ := by
  have e : idx_main_v92 (ix4 b a k (0 : Fin 1)) = ix3 b a k := by coords3
  have hp : val_main_v94 (F := Ideal) X Y Z W (ix4 b a k ⟨6, h⟩)
      = val_main_v92 (F := Ideal) X Y Z W (ix4 b a k (0 : Fin 1)) := by
    unfold val_main_v94
    refine concatenate_apply_piece (3 : Fin 4) _ _ (ix4 b a k ⟨6, h⟩) 6 ?hk S4x128x2048x1 _ ?hxk ?hr 6 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v92_apply, e, ang6_apply]

/-- Column 7 of the joined filters at a triple is piece 7, which is filter 7 there. -/
private theorem col7_apply (h : 7 < 8) :
    val_main_v94 (F := Ideal) X Y Z W (ix4 b a k ⟨7, h⟩)
      = angular (cosAngle (X (ix3 b a k)) (Y (ix3 b a k)) (Z (ix3 b a k)) (flag (W (ix3 b a k)))) ⟨7, h⟩ := by
  have e : idx_main_v93 (ix4 b a k (0 : Fin 1)) = ix3 b a k := by coords3
  have hp : val_main_v94 (F := Ideal) X Y Z W (ix4 b a k ⟨7, h⟩)
      = val_main_v93 (F := Ideal) X Y Z W (ix4 b a k (0 : Fin 1)) := by
    unfold val_main_v94
    refine concatenate_apply_piece (3 : Fin 4) _ _ (ix4 b a k ⟨7, h⟩) 7 ?hk S4x128x2048x1 _ ?hxk ?hr 7 ?hpre
      (ix4 b a k (0 : Fin 1)) ?hi ?ha
    case hk => exact h
    case hxk => rfl
    case hr => rfl
    case hpre => rfl
    case ha => rfl
    case hi =>
      intro d hd
      match d with
      | ⟨0, _⟩ => rfl
      | ⟨1, _⟩ => rfl
      | ⟨2, _⟩ => rfl
      | ⟨3, _⟩ => exact absurd rfl hd
  rw [hp, val_main_v93_apply, e, ang7_apply]

/-- The right factor at a triple and a filter: the angular filter of the masked angle, mask. -/
private theorem right_apply (f : Fin 8) :
    val_main_v141 (F := Ideal) X Y Z W (ix4 b a k f)
      = right (X (ix3 b a k)) (Y (ix3 b a k)) (Z (ix3 b a k)) (W (ix3 b a k)) f := by
  have eM : idx_main_v139 (idx_main_v140 (ix4 b a k f)) = ix3 b a k := by coords3
  rw [val_main_v141_apply, val_main_v140_apply, val_main_v139_apply, eM, mask_apply]
  unfold right
  match f with
  | ⟨0, h⟩ => rw [col0_apply]; rfl
  | ⟨1, h⟩ => rw [col1_apply]; rfl
  | ⟨2, h⟩ => rw [col2_apply]; rfl
  | ⟨3, h⟩ => rw [col3_apply]; rfl
  | ⟨4, h⟩ => rw [col4_apply]; rfl
  | ⟨5, h⟩ => rw [col5_apply]; rfl
  | ⟨6, h⟩ => rw [col6_apply]; rfl
  | ⟨7, h⟩ => rw [col7_apply]; rfl

end AtTriple

end Pieces

/-- The reference's last stage at `Ideal` is the descriptor `G` of the five arguments. -/
theorem result_eq (X Y Z : (⟨S4x128x2048, .f32⟩ : BufTy).Contents (Elt Ideal)) (O : (⟨S32, .f32⟩ : BufTy).Contents (Elt Ideal))
    (W : (⟨S4x128x2048, .i32⟩ : BufTy).Contents (Elt Ideal)) :
    val_main_v146 (F := Ideal) X Y Z O W = G X Y Z O W := by
  funext i
  have h0 : (i 0).val < 4 := (i 0).isLt
  have h1 : (i 1).val < 128 := (i 1).isLt
  have h2 : (i 2).val < 256 := (i 2).isLt
  rw [val_main_v146_apply, val_main_v145_apply]
  show _ = ∑ k : Fin 2048, term X Y Z O W i k
  refine Finset.sum_congr rfl fun k _ => ?_
  have hl : lidx_main_v145 (idx_main_v146 i) k = ix4 (n0 := 4) (n1 := 128) (i 0) (i 1) k (centreOf i) := by
    funext d
    apply Fin.ext
    match d with
    | ⟨0, _⟩ => show (((i 0).val * 128 + (i 1).val) * 256 + (i 2).val) / 32768 = (i 0).val; omega
    | ⟨1, _⟩ => show (((i 0).val * 128 + (i 1).val) * 256 + (i 2).val) / 256 % 128 = (i 1).val; omega
    | ⟨2, _⟩ => rfl
    | ⟨3, _⟩ => show (((i 0).val * 128 + (i 1).val) * 256 + (i 2).val) / 8 % 32 = (i 2).val / 8; omega
  have hr : ridx_main_v145 (idx_main_v146 i) k = ix4 (n0 := 4) (n1 := 128) (i 0) (i 1) k (filterOf i) := by
    funext d
    apply Fin.ext
    match d with
    | ⟨0, _⟩ => show (((i 0).val * 128 + (i 1).val) * 256 + (i 2).val) / 32768 = (i 0).val; omega
    | ⟨1, _⟩ => show (((i 0).val * 128 + (i 1).val) * 256 + (i 2).val) / 256 % 128 = (i 1).val; omega
    | ⟨2, _⟩ => rfl
    | ⟨3, _⟩ => show (((i 0).val * 128 + (i 1).val) * 256 + (i 2).val) % 8 = (i 2).val % 8; omega
  rw [hl, hr]
  exact congrArg₂ (· * ·) (left_apply X Y Z O W (i 0) (i 1) k (centreOf i)) (right_apply X Y Z W (i 0) (i 1) k (filterOf i))

end Cert.ReferenceIdeal.RefValue

end
-- ==== Proof.lean ====
/-
  The angular symmetry descriptor kernel against its jnp reference, over the extended reals.

  Both programs compute, for each atom `(b, a)`, Gaussian centre `r < 32` and angular filter `f < 8`, the sum over the
  atom's 2048 neighbour triples of (radial smearing · cosine cutoffs · mask) at `r` times (Behler angular filter of the
  law-of-cosines angle · mask) at `f`, laid out as column `8·r + f`. The reference forms the two masked factors whole and
  contracts them with one `dot_general` over the triples. The kernel walks a 4 × 8 grid: at step `(b, s)` it forms
  the same two factors for tile `s` (256 triples) of batch `b`, contracts them over the tile with a batched matrix
  product into a zero accumulator, and adds the result to a scratch accumulator that it zeroes at `s = 0` and copies to
  the output block at `s = 7`. Entry by entry the kernel's factors are the reference's — the only differences are that
  the kernel multiplies `-4` into `(x - o)` before squaring (multiplication is associative) and converts a one-bit
  flag to a number through a 32-bit word (the same number) — and a sum over 2048 triples is the sum of its eight
  tiles' sums (addition of extended reals is commutative and associative); no distributive law, so the finiteness of
  the inputs is never used. The ideal pass rewrote nothing, so `preserves` has no conjunct.
-/
import proofs.«109276_j2774548873938_1_alg».proof.Defs
import proofs.«109276_j2774548873938_1_alg».proof.Proof.Gen.Kernel
import proofs.«109276_j2774548873938_1_alg».proof.Proof.Gen.Kernel.Skeleton
import proofs.«109276_j2774548873938_1_alg».proof.Proof.Gen.Kernel.Launch
import proofs.«109276_j2774548873938_1_alg».proof.Proof.Gen.Kernel.Points
import proofs.«109276_j2774548873938_1_alg».proof.Proof.Gen.Kernel.Frame
import proofs.«109276_j2774548873938_1_alg».proof.Proof.Gen.KernelIdeal
import proofs.«109276_j2774548873938_1_alg».proof.Proof.Gen.KernelIdeal.Skeleton
import proofs.«109276_j2774548873938_1_alg».proof.Proof.Gen.KernelIdeal.Launch
import proofs.«109276_j2774548873938_1_alg».proof.Proof.Gen.KernelIdeal.Points
import proofs.«109276_j2774548873938_1_alg».proof.Proof.Gen.KernelIdeal.Frame
import proofs.«109276_j2774548873938_1_alg».proof.Proof.Gen.ReferenceIdeal
import proofs.«109276_j2774548873938_1_alg».proof.Proof.Gen.KernelIdeal.Value
import proofs.«109276_j2774548873938_1_alg».proof.Proof.Gen.ReferenceIdeal.Run
import proofs.«109276_j2774548873938_1_alg».proof.Proof.Gen.ReferenceIdeal.Read
import proofs.«109276_j2774548873938_1_alg».proof.Proof.Gen.Pre_finite_inputs
import proofs.«109276_j2774548873938_1_alg».proof.Proof.KernelValue
import proofs.«109276_j2774548873938_1_alg».proof.Proof.RefIsG
import Idealize.ShloMosaic.Adequacy
import Idealize.ShloMosaic.Init

noncomputable section

namespace Cert.Proof

open Idealize.ShloMosaic Idealize.SL.Sem

/-- The kernel as printed runs, faults nowhere and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments, both programs end with the descriptor of those arguments in their
    result array: the kernel's blocks tile it with the eight-tile sums, the reference's contraction is the whole sum. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v146_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
